-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S800000 .f32) (main_arg3 : FVec F S256x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 116
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S50000, .i32⟩
  | .hbm, ⟨16, _⟩ => ⟨S850000, .i32⟩
  | .hbm, ⟨17, _⟩ => ⟨S_, .f32⟩
  | .hbm, ⟨18, _⟩ => ⟨S50000, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000, .f32⟩
  | .hbm, ⟨58, _⟩ => ⟨S850000, .f32⟩
  | .hbm, ⟨59, _⟩ => ⟨S50000x128, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x1, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000x128, .f32⟩
  | .hbm, ⟨88, _⟩ => ⟨S850000x1, .f32⟩
  | .hbm, ⟨89, _⟩ => ⟨S850000x128, .f32⟩
  | .hbm, ⟨90, _⟩ => ⟨S850000x128, .f32⟩
  | .hbm, ⟨91, _⟩ => ⟨S_, .f32⟩
  | .hbm, ⟨92, _⟩ => ⟨S50000x128, .f32⟩
  | .hbm, ⟨93, _⟩ => ⟨S850000x1, .i32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x128, .f32⟩
  | .hbm, ⟨107, _⟩ => ⟨S850000x1, .f32⟩
  | .hbm, ⟨108, _⟩ => ⟨S850000x128, .f32⟩
  | .hbm, ⟨109, _⟩ => ⟨S850000x128, .f32⟩
  | .hbm, ⟨110, _⟩ => ⟨S_, .f32⟩
  | .hbm, ⟨111, _⟩ => ⟨S50000x128, .f32⟩
  | .hbm, ⟨112, _⟩ => ⟨S850000x1, .i32⟩
  | .hbm, ⟨113, _⟩ => ⟨S50000x128, .f32⟩
  | .hbm, ⟨114, _⟩ => ⟨S1x128, .f32⟩
  | .hbm, ⟨115, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 128
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S50000, .i32⟩
  | .hbm, ⟨16, _⟩ => ⟨S850000, .i32⟩
  | .hbm, ⟨17, _⟩ => ⟨S_, .f32⟩
  | .hbm, ⟨18, _⟩ => ⟨S50000, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000, .f32⟩
  | .hbm, ⟨58, _⟩ => ⟨S850000, .f32⟩
  | .hbm, ⟨59, _⟩ => ⟨S50000x128, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x1, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x128, .f32⟩
  | .hbm, ⟨92, _⟩ => ⟨S850000x1, .f32⟩
  | .hbm, ⟨93, _⟩ => ⟨S850000x128, .f32⟩
  | .hbm, ⟨94, _⟩ => ⟨S850000x128, .f32⟩
  | .hbm, ⟨95, _⟩ => ⟨S_, .f32⟩
  | .hbm, ⟨96, _⟩ => ⟨S50000x128, .f32⟩
  | .hbm, ⟨97, _⟩ => ⟨S850000x1, .i32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x128, .f32⟩
  | .hbm, ⟨115, _⟩ => ⟨S850000x1, .f32⟩
  | .hbm, ⟨116, _⟩ => ⟨S850000x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | .hbm, ⟨125, _⟩ => ⟨S_, .f32⟩
  | .hbm, ⟨126, _⟩ => ⟨S50000x128, .f32⟩
  | .hbm, ⟨127, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call2_cst : Ref sig .tc := ⟨.hbm, 79, rfl⟩
abbrev main_call2_v0 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call3_cst : Ref sig .tc := ⟨.hbm, 102, rfl⟩
abbrev main_call3_v0 : Ref sig .tc := ⟨.hbm, 103, rfl⟩
abbrev main_v71 : Ref sig .tc := ⟨.hbm, 104, rfl⟩
abbrev main_v72 : Ref sig .tc := ⟨.hbm, 105, rfl⟩
abbrev main_c_14 : Ref sig .tc := ⟨.hbm, 106, rfl⟩
abbrev main_v73 : Ref sig .tc := ⟨.hbm, 107, rfl⟩
abbrev main_v74 : Ref sig .tc := ⟨.hbm, 108, rfl⟩
abbrev main_c_15 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_call4_cst : Ref sig .tc := ⟨.hbm, 125, rfl⟩
abbrev main_call4_v0 : Ref sig .tc := ⟨.hbm, 126, rfl⟩
abbrev main_v89 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Spec.lean ====
/-
  The two whole-array functions one layer of the graph network is made of, entry by entry on the extended reals,
  and the two ways a program computes the first of them.

  * `matProd X W`: the product of an M×K array with a K×N array; entry (p, q) is the sum over k of X(p,k)·W(k,q).
    A kernel computes it block of rows by block of rows with the contraction axis whole, from operands narrowed to
    a shorter float format, into a zero accumulator; on the extended reals narrowing is the identity, the zero
    accumulator adds nothing, and a block of rows of the product is the product of that block of rows. The host
    computes it in one contraction. Both are the same sum.
  * `biasRelu A B`: a row vector B (kept as a 1×N array) added to every row of A, then every entry clamped below
    at the value of the all-zero word.
-/
import Idealize.ShloMosaic.Lib.ValueIdx
import Idealize.ShloMosaic.PureOps.Ideal.Laws
import proofs.«111941_j90589450207915_1_alg».proof.Proof.LibPlainDot

noncomputable section

open scoped BigOperators

namespace Gcn

open Idealize.ShloMosaic Idealize.ShloMosaic.ValueIdx

variable {M K N : Nat}

/-- The matrix product, entry by entry. -/
def matProd (X : FVec Ideal ⟨2, ![M, K]⟩ .f32) (W : FVec Ideal ⟨2, ![K, N]⟩ .f32) : FVec Ideal ⟨2, ![M, N]⟩ .f32 :=
  fun i => ∑ k : Fin K, X (ix2 (i 0) k) * W (ix2 k (i 1))

theorem matProd_apply (X : FVec Ideal ⟨2, ![M, K]⟩ .f32) (W : FVec Ideal ⟨2, ![K, N]⟩ .f32) (p : Fin M) (q : Fin N) :
    matProd X W (ix2 p q) = ∑ k : Fin K, X (ix2 p k) * W (ix2 k q) := rfl

/-- A row vector added to every row, then the clamp below at the zero word's value. -/
def biasRelu (A : FVec Ideal ⟨2, ![M, N]⟩ .f32) (B : FVec Ideal ⟨2, ![1, N]⟩ .f32) : FVec Ideal ⟨2, ![M, N]⟩ .f32 :=
  fun i => max (A i + B (ix2 0 (i 1))) (Ideal.ofBits .f32 0x00000000#32)

theorem biasRelu_apply (A : FVec Ideal ⟨2, ![M, N]⟩ .f32) (B : FVec Ideal ⟨2, ![1, N]⟩ .f32) (p : Fin M) (q : Fin N) :
    biasRelu A B (ix2 p q) = max (A (ix2 p q) + B (ix2 0 q)) (Ideal.ofBits .f32 0x00000000#32) := rfl

/-- The host's one contraction is the matrix product. -/
theorem hostDot_eq {d : DotDims ⟨2, ![M, K]⟩ ⟨2, ![K, N]⟩ ⟨2, ![M, N]⟩} (h : PlainDot.IsPlain d)
    (X : FVec Ideal ⟨2, ![M, K]⟩ .f32) (W : FVec Ideal ⟨2, ![K, N]⟩ .f32) :
    Host.dotGeneral d none X W = matProd X W := by
  funext i
  obtain ⟨p, q, rfl⟩ : ∃ (p : Fin M) (q : Fin N), i = ix2 p q := ⟨i 0, i 1, eq_ix2 i⟩
  exact PlainDot.dotGeneral_apply h none _ X W p q

/-- A kernel's product of narrowed operands into a zero accumulator, read at an entry: the same sum over the
    operands as they were before narrowing. -/
theorem kernelDot_apply {d : DotDims ⟨2, ![M, K]⟩ ⟨2, ![K, N]⟩ ⟨2, ![M, N]⟩} (h : PlainDot.IsPlain d)
    (X : FVec Ideal ⟨2, ![M, K]⟩ .f32) (W : FVec Ideal ⟨2, ![K, N]⟩ .f32)
    (hx : FTy.bits .bf16 < FTy.bits .f32) (p : Fin M) (q : Fin N) :
    matmul d none (truncf .bf16 X hx) (truncf .bf16 W hx) (constant ⟨2, ![M, N]⟩ .f32 0x00000000#32) (ix2 p q)
      = ∑ k : Fin K, X (ix2 p k) * W (ix2 k q) :=
  PlainDot.matmul_zero_apply h none (truncf .bf16 X hx) (truncf .bf16 W hx) p q

end Gcn

end
-- ==== Proof.ActHost.lean ====
/-
  The bias-and-clamp as a host program spells it, equal to the whole-array function entry by entry.

  The host makes the bias vector b a 1×N row by placing its axis on axis 1 of the row, spreads that row over the M rows
  by placing the row's two axes on the two axes of the result, adds, and takes the maximum against the all-zero word
  spread from a scalar. A kernel's side has the 1×N row as a reshape of b. Read at entry (p, q): the reshape's row at
  (0, q) is b at q (the same row-major position, 0·N + q = q); the host's row at (0, q) is b at q as well (the one
  axis of b sits on axis 1; when N = 1 the only q is 0); the row spread over the rows read at (p, q) is the row at
  (0, q); and the spread scalar is the scalar. So both sides are max (A(p, q) + b(q)) z, z the all-zero word's value.
-/
import Idealize.ShloMosaic.Lib.ValueIdx
import Idealize.ShloMosaic.Lib.Pipeline.Value
import Idealize.ShloMosaic.PureOps.Ideal.Laws
import proofs.«111941_j90589450207915_1_alg».proof.Proof.Spec

noncomputable section

namespace Gcn

open Idealize.ShloMosaic Idealize.ShloMosaic.ValueIdx

variable {M N : Nat}

/-- A coordinate below N is its own value unless N = 1, when it is 0: the rule for reading a spread operand's axis. -/
theorem coord_unit (q : Fin N) : q.val = if N = 1 then 0 else q.val := by
  have hq := q.isLt
  split
  · omega
  · rfl

/-- The vector reshaped to a 1×N row, read at (0, q): the vector's entry q. -/
theorem reshape_row_apply (b : FVec Ideal ⟨1, ![N]⟩ .f32) (hc : (⟨1, ![N]⟩ : Shape).ShapeCasts ⟨2, ![1, N]⟩) (q : Fin N) :
    shapeCast ⟨2, ![1, N]⟩ b hc (ix2 0 q) = b (ix1 q) :=
  shapeCast_apply b hc (ix2 0 q) (ix1 q) (by
    rw [Shape.rowMajor_val_one, Shape.rowMajor_val_two]
    show q.val = 0 * N + q.val
    rw [Nat.zero_mul, Nat.zero_add])

/-- The vector placed on axis 1 of a 1×N row, read at (0, q): the vector's entry q. -/
theorem host_row_apply (b : FVec Ideal ⟨1, ![N]⟩ .f32) (h1 : (⟨1, ![N]⟩ : Shape).BroadcastsInDim ⟨2, ![1, N]⟩ ![1]) (q : Fin N) :
    broadcastInDim ⟨2, ![1, N]⟩ ![1] h1 b (ix2 0 q) = b (ix1 q) :=
  broadcastInDim_apply ![1] h1 b (ix2 0 q) (ix1 q) (fun a => by
    match a with
    | ⟨0, _⟩ => exact coord_unit q)

/-- A 1×N row spread over M rows, read at (p, q): the row's entry (0, q). -/
theorem spread_rows_apply (R : FVec Ideal ⟨2, ![1, N]⟩ .f32) (h2 : (⟨2, ![1, N]⟩ : Shape).BroadcastsInDim ⟨2, ![M, N]⟩ ![0, 1])
    (p : Fin M) (q : Fin N) :
    broadcastInDim ⟨2, ![M, N]⟩ ![0, 1] h2 R (ix2 p q) = R (ix2 0 q) :=
  broadcastInDim_apply ![0, 1] h2 R (ix2 p q) (ix2 0 q) (fun a => by
    match a with
    | ⟨0, _⟩ => rfl
    | ⟨1, _⟩ => exact coord_unit q)

/-- The all-zero word spread from a scalar, read anywhere: the word's value. -/
theorem spread_zero_apply (h0 : (⟨0, ![]⟩ : Shape).BroadcastsInDim ⟨2, ![M, N]⟩ ![]) (i : (⟨2, ![M, N]⟩ : Shape).Idx) :
    broadcastInDim ⟨2, ![M, N]⟩ ![] h0 (constant (F := Ideal) ⟨0, ![]⟩ .f32 0x00000000#32) i = Ideal.ofBits .f32 0x00000000#32 :=
  (broadcastInDim_apply ![] h0 (constant (F := Ideal) ⟨0, ![]⟩ .f32 0x00000000#32) i ix0 (fun a => a.elim0)).trans
    (constant_apply _ _)

/-- The whole-array bias-and-clamp over the reshaped bias is the host program's spelling of it. -/
theorem biasRelu_eq_host (A : FVec Ideal ⟨2, ![M, N]⟩ .f32) (b : FVec Ideal ⟨1, ![N]⟩ .f32)
    (hc : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    biasRelu A (shapeCast ⟨2, ![1, N]⟩ b hc)
      = maximumf (addf A (broadcastInDim ⟨2, ![M, N]⟩ ![0, 1] h2 (broadcastInDim ⟨2, ![1, N]⟩ ![1] h1 b)))
          (broadcastInDim ⟨2, ![M, N]⟩ ![] h0 (constant (F := Ideal) ⟨0, ![]⟩ .f32 0x00000000#32)) := by
  funext i
  obtain ⟨p, q, rfl⟩ : ∃ (p : Fin M) (q : Fin N), i = ix2 p q := ⟨i 0, i 1, eq_ix2 i⟩
  refine (biasRelu_apply A _ p q).trans ?_
  refine Eq.symm ((maximumf_apply _ _ _).trans ?_)
  refine congrArg₂ (fun (x y : Ideal .f32) => max x y) ?_ (spread_zero_apply h0 _)
  refine (addf_apply _ _ _).trans ?_
  refine congrArg (fun z : Ideal .f32 => A (ix2 p q) + z) ?_
  exact ((spread_rows_apply _ h2 p q).trans (host_row_apply b h1 q)).trans (reshape_row_apply b hc q).symm

end Gcn

end
-- ==== Proof.Keeps.lean ====
/-
  What each segment of the program leaves alone.

  The program is a sequence of segments: five runs of host operations before the first launch, then launches and runs
  of host operations in turn. A run of host operations changes only the buffers its operations write; a launch changes
  only its output array (its input arrays are read, and every other buffer is untouched). So a buffer that is not in
  a segment's written list holds after the segment what it held before. Stated once per segment for ANY buffer, each
  use is a membership test on a literal list.
-/
import proofs.«111941_j90589450207915_1_alg».proof.Proof.Gen.KernelIdeal.Frame
import Idealize.ShloMosaic.Lib.StableHlo.Run

set_option maxRecDepth 16384

noncomputable section

open Idealize.ShloMosaic Idealize.ShloMosaic.TcCoe Idealize.SL.Sem

namespace Cert.KernelIdeal.Keeps

open Cert.KernelIdeal Cert.KernelIdeal.Gen

variable {F : FTy → Type} [FloatOps F]
variable (m : (ℓ : Loc nD τ sig) → Buf (Elt F) ℓ) (ρ : Dev nD → PrngReg)

/-- Everything the host operations before the first launch write: the source and target index vectors with the
    self-loops appended, the edge weights with ones appended, the degrees and their inverse square roots, the
    normalisation of every edge, and the constants on the way. -/
abbrev prelude_W : List (Ref sig .tc) :=
  [main_v0, main_v1, main_v2, main_v3, main_v4, main_v5, main_v6, main_v7, main_cst, main_v8, main_v9, main_cst_0, main_v10,
   main_v11, main_v12, main_cst_1, main_v13, main_v14, main_cst_2, main_v15, main_v16, main_cst_3, main_call0_v0, main_call0_v1,
   main_v17, main_v18, main_cst_4, main_call1_v0, main_call1_v1, main_v19, main_c, main_v20, main_v21, main_c_5, main_v22,
   main_v23, main_v24, main_v25, main_v26, main_v27, main_c_6, main_v28, main_v29, main_c_7, main_v30, main_v31, main_v32,
   main_v33, main_v34, main_v35]
/-- What the gather, scale and scatter-add between the first product and the first bias-and-clamp write. -/
abbrev spread1_W : List (Ref sig .tc) :=
  [main_c_8, main_v37, main_v38, main_c_9, main_v39, main_v40, main_v41, main_v42, main_v43, main_v44, main_v45, main_v46,
   main_cst_10, main_v47, main_v48, main_v49, main_v50]
/-- The same stretch of the second layer. -/
abbrev spread3_W : List (Ref sig .tc) :=
  [main_c_11, main_v53, main_v54, main_c_12, main_v55, main_v56, main_v57, main_v58, main_v59, main_v60, main_v61, main_v62,
   main_cst_13, main_v63, main_v64, main_v65, main_v66]
/-- The same stretch of the third layer. -/
abbrev spread5_W : List (Ref sig .tc) :=
  [main_c_14, main_v69, main_v70, main_c_15, main_v71, main_v72, main_v73, main_v74, main_v75, main_v76, main_v77, main_v78,
   main_cst_16, main_v79, main_v80, main_v81, main_v82]

/-- Every operation of a literal run writes into the given list: each operation's written set is its one result
    buffer, and that buffer is in the list. -/
macro "writes_into" ops:ident : tactic =>
  `(tactic| (
    simp only [$ops:ident, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    repeat' apply And.intro
    all_goals exact List.mem_map_of_mem (by decide)))

theorem hostOps0_writes : (hostOps0 : List (HloOp τ sig (Elt F))).Forall fun op => op.writes ⊆ (prelude_W.map (Proc.devRef (τ := τ) .tc)).toFinset := by
  writes_into hostOps0
theorem hostOps0_1_writes : (hostOps0_1 : List (HloOp τ sig (Elt F))).Forall fun op => op.writes ⊆ (prelude_W.map (Proc.devRef (τ := τ) .tc)).toFinset := by
  writes_into hostOps0_1
theorem hostOps0_2_writes : (hostOps0_2 : List (HloOp τ sig (Elt F))).Forall fun op => op.writes ⊆ (prelude_W.map (Proc.devRef (τ := τ) .tc)).toFinset := by
  writes_into hostOps0_2
theorem hostOps0_3_writes : (hostOps0_3 : List (HloOp τ sig (Elt F))).Forall fun op => op.writes ⊆ (prelude_W.map (Proc.devRef (τ := τ) .tc)).toFinset := by
  writes_into hostOps0_3
theorem hostOps0_4_writes : (hostOps0_4 : List (HloOp τ sig (Elt F))).Forall fun op => op.writes ⊆ (prelude_W.map (Proc.devRef (τ := τ) .tc)).toFinset := by
  writes_into hostOps0_4
theorem hostOps1_writes : (hostOps1 : List (HloOp τ sig (Elt F))).Forall fun op => op.writes ⊆ (spread1_W.map (Proc.devRef (τ := τ) .tc)).toFinset := by
  writes_into hostOps1
theorem hostOps3_writes : (hostOps3 : List (HloOp τ sig (Elt F))).Forall fun op => op.writes ⊆ (spread3_W.map (Proc.devRef (τ := τ) .tc)).toFinset := by
  writes_into hostOps3
theorem hostOps5_writes : (hostOps5 : List (HloOp τ sig (Elt F))).Forall fun op => op.writes ⊆ (spread5_W.map (Proc.devRef (τ := τ) .tc)).toFinset := by
  writes_into hostOps5

/-- The arrays of each launch: two inputs and the output. -/
theorem arrays0 : ∀ w : Fin 3, Pipeline.arrRef spec0 w ∈ ([main_arg0, main_arg3, main_v36] : List (Ref sig .tc)) := by decide
theorem arrays1 : ∀ w : Fin 3, Pipeline.arrRef spec1 w ∈ ([main_v49, main_v50, main_v51] : List (Ref sig .tc)) := by decide
theorem arrays2 : ∀ w : Fin 3, Pipeline.arrRef spec2 w ∈ ([main_v51, main_arg5, main_v52] : List (Ref sig .tc)) := by decide
theorem arrays3 : ∀ w : Fin 3, Pipeline.arrRef spec3 w ∈ ([main_v65, main_v66, main_v67] : List (Ref sig .tc)) := by decide
theorem arrays4 : ∀ w : Fin 3, Pipeline.arrRef spec4 w ∈ ([main_v67, main_arg7, main_v68] : List (Ref sig .tc)) := by decide
theorem arrays5 : ∀ w : Fin 3, Pipeline.arrRef spec5 w ∈ ([main_v81, main_v82, main_v83] : List (Ref sig .tc)) := by decide

variable (c : Dev nD) (b : Ref sig .tc)

/-- Through the host operations before the first launch: a buffer they do not write is as launched. -/
theorem prelude (h : b ∉ prelude_W) : W5 m ρ c (Proc.devRef .tc b) = m ((c : Thread nD τ).loc b) :=
  (StableHlo.after_of_writes_sub hostOps0_4 _ hostOps0_4_writes h).trans <|
  (StableHlo.after_of_writes_sub hostOps0_3 _ hostOps0_3_writes h).trans <|
  (StableHlo.after_of_writes_sub hostOps0_2 _ hostOps0_2_writes h).trans <|
  (StableHlo.after_of_writes_sub hostOps0_1 _ hostOps0_1_writes h).trans <|
  (StableHlo.after_of_writes_sub hostOps0 _ hostOps0_writes h)

theorem launch0 (h : b ∉ ([main_arg0, main_arg3, main_v36] : List (Ref sig .tc))) :
    W6 m ρ c (Proc.devRef .tc b) = W5 m ρ c (Proc.devRef .tc b) := W6_of_ne m ρ c b fun w e => h (e ▸ arrays0 w)
theorem spread1 (h : b ∉ spread1_W) : W7 m ρ c (Proc.devRef .tc b) = W6 m ρ c (Proc.devRef .tc b) :=
  StableHlo.after_of_writes_sub hostOps1 _ hostOps1_writes h
theorem launch1 (h : b ∉ ([main_v49, main_v50, main_v51] : List (Ref sig .tc))) :
    W8 m ρ c (Proc.devRef .tc b) = W7 m ρ c (Proc.devRef .tc b) := W8_of_ne m ρ c b fun w e => h (e ▸ arrays1 w)
theorem launch2 (h : b ∉ ([main_v51, main_arg5, main_v52] : List (Ref sig .tc))) :
    W9 m ρ c (Proc.devRef .tc b) = W8 m ρ c (Proc.devRef .tc b) := W9_of_ne m ρ c b fun w e => h (e ▸ arrays2 w)
theorem spread3 (h : b ∉ spread3_W) : W10 m ρ c (Proc.devRef .tc b) = W9 m ρ c (Proc.devRef .tc b) :=
  StableHlo.after_of_writes_sub hostOps3 _ hostOps3_writes h
theorem launch3 (h : b ∉ ([main_v65, main_v66, main_v67] : List (Ref sig .tc))) :
    W11 m ρ c (Proc.devRef .tc b) = W10 m ρ c (Proc.devRef .tc b) := W11_of_ne m ρ c b fun w e => h (e ▸ arrays3 w)
theorem launch4 (h : b ∉ ([main_v67, main_arg7, main_v68] : List (Ref sig .tc))) :
    W12 m ρ c (Proc.devRef .tc b) = W11 m ρ c (Proc.devRef .tc b) := W12_of_ne m ρ c b fun w e => h (e ▸ arrays4 w)
theorem spread5 (h : b ∉ spread5_W) : W13 m ρ c (Proc.devRef .tc b) = W12 m ρ c (Proc.devRef .tc b) :=
  StableHlo.after_of_writes_sub hostOps5 _ hostOps5_writes h

end Cert.KernelIdeal.Keeps

end
-- ==== Proof.Prelude.lean ====
/-
  The host operations before the first launch, read against the reference's stages.

  Before its first launch the program runs fifty host operations in five runs: twenty-two that build the edge lists
  with self loops (sources, destinations, weights), scatter-add the weights into the node degrees and compare the
  degrees with zero; three that replace a non-positive degree by one; two that take the reciprocal square root and
  make a zero; three that put zero back where the degree was not positive; and twenty that gather that factor at both
  ends of every edge and multiply the two factors with the edge weight. The reference does the same operations in the
  same order, so what a buffer holds at the end of a run is the reference's stage of the same number, as a function
  of the edge-index and edge-weight arguments. Each run is read on its own: what it reads from earlier runs is taken
  at the stage already identified, and a buffer a run does not write keeps what it held.
-/
import proofs.«111941_j90589450207915_1_alg».proof.Proof.Gen.KernelIdeal.Frame
import proofs.«111941_j90589450207915_1_alg».proof.Proof.Gen.ReferenceIdeal.Read
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Prelude

open Cert.KernelIdeal Cert.KernelIdeal.Gen Cert.ReferenceIdeal.Read

variable (m : (ℓ : Loc nD τ sig) → Buf (Elt Ideal) ℓ) (ρ : Dev nD → PrngReg) (c : Dev nD)

/-- A buffer the run does not write, read after the run from contents W: it holds what W held there, which the
    fact e names. The contents are made opaque first, so that only this run is read. -/
macro "kept " W:term:max e:term:max : tactic =>
  `(tactic| (
    have e := $e
    generalize $W = V at e ⊢
    after_results_simp
    exact e))

/-! ## After the first run -/

set_option maxHeartbeats 8000000 in
/-- The edge sources with the self loops appended. -/
theorem src1 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

set_option maxHeartbeats 8000000 in
/-- The edge destinations with the self loops appended. -/
theorem dst1 : W1 m ρ c (Proc.devRef .tc main_v7) = val_main_v7 (F := Ideal) (m ((c : Thread nD τ).loc main_arg1)) := by
  show StableHlo.after hostOps0 (W0 m ρ c) (Proc.devRef .tc main_v7) = _
  after_results_simp
  rfl

set_option maxHeartbeats 8000000 in
/-- The edge weights with a one appended for every self loop. -/
theorem wgt1 : W1 m ρ c (Proc.devRef .tc main_v9) = val_main_v9 (F := Ideal) (m ((c : Thread nD τ).loc main_arg2)) := by
  show StableHlo.after hostOps0 (W0 m ρ c) (Proc.devRef .tc main_v9) = _
  after_results_simp
  rfl

set_option maxHeartbeats 8000000 in
/-- The node degrees: the weights scatter-added at the destinations into zeros. -/
theorem deg1 : W1 m ρ c (Proc.devRef .tc main_v12)
    = val_main_v12 (F := Ideal) (m ((c : Thread nD τ).loc main_arg1)) (m ((c : Thread nD τ).loc main_arg2)) := by
  show StableHlo.after hostOps0 (W0 m ρ c) (Proc.devRef .tc main_v12) = _
  after_results_simp
  rfl

set_option maxHeartbeats 8000000 in
/-- Where the degree is positive (the first of the two comparisons). -/
theorem pos14_1 : W1 m ρ c (Proc.devRef .tc main_v14)
    = val_main_v14 (F := Ideal) (m ((c : Thread nD τ).loc main_arg1)) (m ((c : Thread nD τ).loc main_arg2)) := by
  show StableHlo.after hostOps0 (W0 m ρ c) (Proc.devRef .tc main_v14) = _
  after_results_simp
  rfl

set_option maxHeartbeats 8000000 in
/-- Where the degree is positive (the second of the two comparisons). -/
theorem pos16_1 : W1 m ρ c (Proc.devRef .tc main_v16)
    = val_main_v16 (F := Ideal) (m ((c : Thread nD τ).loc main_arg1)) (m ((c : Thread nD τ).loc main_arg2)) := by
  show StableHlo.after hostOps0 (W0 m ρ c) (Proc.devRef .tc main_v16) = _
  after_results_simp
  rfl

set_option maxHeartbeats 8000000 in
/-- The scalar one. -/
theorem one1 : W1 m ρ c (Proc.devRef .tc main_cst_3) = val_main_cst_3 (F := Ideal) := by
  show StableHlo.after hostOps0 (W0 m ρ c) (Proc.devRef .tc main_cst_3) = _
  after_results_simp
  rfl

/-! ## After the second run: a non-positive degree replaced by one -/

/-- The second run from any contents: the degree where the second comparison holds, elsewhere the scalar one spread
    over the nodes. -/
theorem where0 (V : Valuation τ sig (Elt Ideal)) :
    StableHlo.after hostOps0_1 V (Proc.devRef .tc main_v17)
      = select (V (Proc.devRef .tc main_v16)) (V (Proc.devRef .tc main_v12))
          (broadcastInDim S50000 ![] bcast_S_S50000 (id (V (Proc.devRef .tc main_cst_3)))) := by
  after_results_simp
  rfl

/-- The degree where it is positive, one elsewhere. -/
theorem fix2 : W2 m ρ c (Proc.devRef .tc main_v17)
    = val_main_v17 (F := Ideal) (m ((c : Thread nD τ).loc main_arg1)) (m ((c : Thread nD τ).loc main_arg2)) := by
  refine (where0 (W1 m ρ c)).trans ?_
  rw [pos16_1 m ρ c, deg1 m ρ c, one1 m ρ c]
  rfl

/-- The sources are not written by the second run. -/
theorem src2 : W2 m ρ c (Proc.devRef .tc main_v3) = val_main_v3 (F := Ideal) (m ((c : Thread nD τ).loc main_arg1)) := by
  show StableHlo.after hostOps0_1 (W1 m ρ c) (Proc.devRef .tc main_v3) = _
  kept (W1 m ρ c) (src1 m ρ c)

/-- The destinations are not written by the second run. -/
theorem dst2 : W2 m ρ c (Proc.devRef .tc main_v7) = val_main_v7 (F := Ideal) (m ((c : Thread nD τ).loc main_arg1)) := by
  show StableHlo.after hostOps0_1 (W1 m ρ c) (Proc.devRef .tc main_v7) = _
  kept (W1 m ρ c) (dst1 m ρ c)

/-- The weights are not written by the second run. -/
theorem wgt2 : W2 m ρ c (Proc.devRef .tc main_v9) = val_main_v9 (F := Ideal) (m ((c : Thread nD τ).loc main_arg2)) := by
  show StableHlo.after hostOps0_1 (W1 m ρ c) (Proc.devRef .tc main_v9) = _
  kept (W1 m ρ c) (wgt1 m ρ c)

/-- The first comparison is not written by the second run. -/
theorem pos14_2 : W2 m ρ c (Proc.devRef .tc main_v14)
    = val_main_v14 (F := Ideal) (m ((c : Thread nD τ).loc main_arg1)) (m ((c : Thread nD τ).loc main_arg2)) := by
  show StableHlo.after hostOps0_1 (W1 m ρ c) (Proc.devRef .tc main_v14) = _
  kept (W1 m ρ c) (pos14_1 m ρ c)

/-! ## After the third run: the reciprocal square root, and a zero -/

/-- The reciprocal square root of the repaired degree. -/
theorem inv3 : W3 m ρ c (Proc.devRef .tc main_v18)
    = val_main_v18 (F := Ideal) (m ((c : Thread nD τ).loc main_arg1)) (m ((c : Thread nD τ).loc main_arg2)) := by
  have e := fix2 m ρ c
  show StableHlo.after hostOps0_2 (W2 m ρ c) (Proc.devRef .tc main_v18) = _
  generalize W2 m ρ c = V at e ⊢
  after_results_simp
  rw [e]
  rfl

/-- The scalar zero. -/
theorem zero3 : W3 m ρ c (Proc.devRef .tc main_cst_4) = val_main_cst_4 (F := Ideal) := by
  show StableHlo.after hostOps0_2 (W2 m ρ c) (Proc.devRef .tc main_cst_4) = _
  generalize W2 m ρ c = V
  after_results_simp
  rfl

/-- The sources are not written by the third run. -/
theorem src3 : W3 m ρ c (Proc.devRef .tc main_v3) = val_main_v3 (F := Ideal) (m ((c : Thread nD τ).loc main_arg1)) := by
  show StableHlo.after hostOps0_2 (W2 m ρ c) (Proc.devRef .tc main_v3) = _
  kept (W2 m ρ c) (src2 m ρ c)

/-- The destinations are not written by the third run. -/
theorem dst3 : W3 m ρ c (Proc.devRef .tc main_v7) = val_main_v7 (F := Ideal) (m ((c : Thread nD τ).loc main_arg1)) := by
  show StableHlo.after hostOps0_2 (W2 m ρ c) (Proc.devRef .tc main_v7) = _
  kept (W2 m ρ c) (dst2 m ρ c)

/-- The weights are not written by the third run. -/
theorem wgt3 : W3 m ρ c (Proc.devRef .tc main_v9) = val_main_v9 (F := Ideal) (m ((c : Thread nD τ).loc main_arg2)) := by
  show StableHlo.after hostOps0_2 (W2 m ρ c) (Proc.devRef .tc main_v9) = _
  kept (W2 m ρ c) (wgt2 m ρ c)

/-- The first comparison is not written by the third run. -/
theorem pos14_3 : W3 m ρ c (Proc.devRef .tc main_v14)
    = val_main_v14 (F := Ideal) (m ((c : Thread nD τ).loc main_arg1)) (m ((c : Thread nD τ).loc main_arg2)) := by
  show StableHlo.after hostOps0_2 (W2 m ρ c) (Proc.devRef .tc main_v14) = _
  kept (W2 m ρ c) (pos14_2 m ρ c)

/-! ## After the fourth run: zero where the degree was not positive -/

/-- The fourth run from any contents: the reciprocal square root where the first comparison holds, elsewhere the
    scalar zero spread over the nodes. -/
theorem where1 (V : Valuation τ sig (Elt Ideal)) :
    StableHlo.after hostOps0_3 V (Proc.devRef .tc main_v19)
      = select (V (Proc.devRef .tc main_v14)) (V (Proc.devRef .tc main_v18))
          (broadcastInDim S50000 ![] bcast_S_S50000 (id (V (Proc.devRef .tc main_cst_4)))) := by
  after_results_simp
  rfl

/-- The normalising factor of a node: the reciprocal square root of its degree where that is positive, zero elsewhere. -/
theorem fac4 : W4 m ρ c (Proc.devRef .tc main_v19)
    = val_main_v19 (F := Ideal) (m ((c : Thread nD τ).loc main_arg1)) (m ((c : Thread nD τ).loc main_arg2)) := by
  refine (where1 (W3 m ρ c)).trans ?_
  rw [pos14_3 m ρ c, inv3 m ρ c, zero3 m ρ c]
  rfl

/-- The sources are not written by the fourth run. -/
theorem src4 : W4 m ρ c (Proc.devRef .tc main_v3) = val_main_v3 (F := Ideal) (m ((c : Thread nD τ).loc main_arg1)) := by
  show StableHlo.after hostOps0_3 (W3 m ρ c) (Proc.devRef .tc main_v3) = _
  kept (W3 m ρ c) (src3 m ρ c)

/-- The destinations are not written by the fourth run. -/
theorem dst4 : W4 m ρ c (Proc.devRef .tc main_v7) = val_main_v7 (F := Ideal) (m ((c : Thread nD τ).loc main_arg1)) := by
  show StableHlo.after hostOps0_3 (W3 m ρ c) (Proc.devRef .tc main_v7) = _
  kept (W3 m ρ c) (dst3 m ρ c)

/-- The weights are not written by the fourth run. -/
theorem wgt4 : W4 m ρ c (Proc.devRef .tc main_v9) = val_main_v9 (F := Ideal) (m ((c : Thread nD τ).loc main_arg2)) := by
  show StableHlo.after hostOps0_3 (W3 m ρ c) (Proc.devRef .tc main_v9) = _
  kept (W3 m ρ c) (wgt3 m ρ c)

/-! ## After the fifth run: the normalised edge weights -/

set_option maxHeartbeats 8000000 in
/-- The sources as the first launch finds them. -/
theorem src5 : W5 m ρ c (Proc.devRef .tc main_v3) = val_main_v3 (F := Ideal) (m ((c : Thread nD τ).loc main_arg1)) := by
  show StableHlo.after hostOps0_4 (W4 m ρ c) (Proc.devRef .tc main_v3) = _
  kept (W4 m ρ c) (src4 m ρ c)

set_option maxHeartbeats 8000000 in
/-- The destinations as the first launch finds them. -/
theorem dst5 : W5 m ρ c (Proc.devRef .tc main_v7) = val_main_v7 (F := Ideal) (m ((c : Thread nD τ).loc main_arg1)) := by
  show StableHlo.after hostOps0_4 (W4 m ρ c) (Proc.devRef .tc main_v7) = _
  kept (W4 m ρ c) (dst4 m ρ c)

set_option maxHeartbeats 8000000 in
/-- The normalised edge weights as the first launch finds them: the factor at the source, times the weight, times the
    factor at the destination. -/
theorem nrm5 : W5 m ρ c (Proc.devRef .tc main_v35) = val_main_v35 (F := Ideal) (m ((c : Thread nD τ).loc main_arg1)) (m ((c : Thread nD τ).loc main_arg2)) := by
  have e3 := src4 m ρ c
  have e19 := fac4 m ρ c
  have e9 := wgt4 m ρ c
  have e7 := dst4 m ρ c
  show StableHlo.after hostOps0_4 (W4 m ρ c) (Proc.devRef .tc main_v35) = _
  generalize W4 m ρ c = V at e3 e19 e9 e7 ⊢
  after_results_simp
  rw [e3, e19, e9, e7]
  rfl

end Cert.KernelIdeal.Prelude

end
-- ==== Proof.Prod0.lean ====
/-
  The first matrix-product launch: the 50000×256 node features times the 256×128 weights, ten blocks of 5000 rows.

  The output window's block at grid point t is rows 5000·t … 5000·t + 4999 of the result, all 128 columns; the left
  operand's block at t is the same rows of the features, all 256 columns; the right operand's block is the whole
  weight array at every point. The body multiplies the two blocks over the whole contraction axis, so entry (p, q) of
  what point t writes back is the sum over k of features(5000·t + p, k) · weights(k, q): block t of the one
  whole-array product. The ten blocks tile the result (row r lies in block r / 5000), so after the launch the result
  array IS the product of the two arrays as the launch found them.
-/
import proofs.«111941_j90589450207915_1_alg».proof.Proof.Gen.KernelIdeal.Frame
import proofs.«111941_j90589450207915_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Prod0

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row-blocked windows sit at block row t, the weights at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The body's one stored value at an entry of the block: the contraction of the two loaded blocks. -/
theorem payload_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  exact Gcn.kernelDot_apply (d := dot_S5000x256_S256x128_S5000x128_1_0_0_1_n_n) ⟨rfl, rfl, rfl, rfl, rfl, rfl⟩ x0 x1 _ p q

/-- The left operand's block at point t: rows 5000·t … of its array. -/
theorem lhs_block_apply (c : Dev nD) (t : Fin cfg0.N) (x : S5000x256.Idx) (k : S50000x256.Idx)
    (hk0 : (k 0).val = 5000 * t.val + (x 0).val) (hk1 : (k 1).val = (x 1).val) :
    (iblk0 V c 0 t : Vec Ideal S5000x256 .f32) x = (V c main_arg0 : Vec Ideal S50000x256 .f32) k := by
  obtain ⟨e0, e1, -⟩ := index_maps t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 256 + 1 * (x 1).val = (k 1).val; rw [e1, hk1]; omega

/-- The right operand's block at every point: its whole array. -/
theorem rhs_block_apply (c : Dev nD) (t : Fin cfg0.N) (x k : S256x128.Idx)
    (hk0 : (k 0).val = (x 0).val) (hk1 : (k 1).val = (x 1).val) :
    (iblk0 V c 1 t : Vec Ideal S256x128 .f32) x = (V c main_arg3 : Vec Ideal S256x128 .f32) k := by
  obtain ⟨-, -, e0, e1, -⟩ := index_maps t
  unfold iblk0
  rw [View.read_apply]
  show V c main_arg3 _ = V c main_arg3 _
  refine congrArg (V c main_arg3) (funext fun a => Fin.ext ?_)
  match a with
  | ⟨0, _⟩ => show win0_1.index t (0 : Fin 2) * 256 + 1 * (x 0).val = (k 0).val; rw [e0, hk0]; omega
  | ⟨1, _⟩ => show win0_1.index t (1 : Fin 2) * 128 + 1 * (x 1).val = (k 1).val; rw [e1, hk1]; omega

/-- What point t writes back is block t of the product of the two arrays as the launch finds them. -/
theorem flushed_eq (c : Dev nD) (t : Fin cfg0.N) :
    (dat0 V c).flushed 2 t = ((cfg0.win 2).blk t).view.read (Elt Ideal)
      (Gcn.matProd (M := 50000) (K := 256) (N := 128) (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x128) zero_offsets]
  obtain ⟨-, -, -, -, e0, e1, -⟩ := index_maps t
  refine funext fun (j : S5000x128.Idx) => ?_
  obtain ⟨p, q, rfl⟩ : ∃ (p : Fin 5000) (q : Fin 128), j = ix2 p q := ⟨j 0, j 1, eq_ix2 j⟩
  rw [View.read_apply]
  refine (payload_apply (iblk0 V c 0 t) (iblk0 V c 1 t) p q).trans ?_
  unfold Gcn.matProd
  refine Finset.sum_congr rfl fun k _ => ?_
  have hl := lhs_block_apply V c t (ix2 p k) (ix2 ((((cfg0.win 2).blk t).view.emb (ix2 p q)) 0) k)
    (by show win0_2.index t (0 : Fin 2) * 5000 + 1 * p.val = 5000 * t.val + p.val; rw [e0]; omega) rfl
  have hr := rhs_block_apply V c t (ix2 k q) (ix2 k ((((cfg0.win 2).blk t).view.emb (ix2 p q)) 1)) rfl
    (by show win0_2.index t (1 : Fin 2) * 128 + 1 * q.val = q.val; rw [e1]; omega)
  rw [hl, hr]

/-- An index of the result array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v36).slice (win0_2.rect t)).set ↔ _
  rw [View.set_slice_whole, Rect.mem_set_unit]
  exact Iff.rfl

/-- Every block row is some point's. -/
theorem point_of_row : ∀ r : Fin 10, ∃ t : Fin cfg0.N, t.val = r.val :=
  (by decide +kernel : ∀ r : Fin 10, ∃ t : Fin grid0.N, t.val = r.val)

/-- The ten blocks tile the result array: row r is in block r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := point_of_row ⟨(i 0).val / 5000, by omega⟩
  have ht' : t.val = (i 0).val / 5000 := ht
  obtain ⟨-, -, -, -, e0, e1, -⟩ := index_maps t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [e0, ht']; omega
  | ⟨1, _⟩ => show win0_2.index t (1 : Fin 2) * 128 ≤ (i 1).val ∧ (i 1).val < win0_2.index t (1 : Fin 2) * 128 + 128; rw [e1]; omega

/-- After the launch the result array is the product of the two arrays as the launch found them. -/
theorem final (c : Dev nD) :
    (dat0 V c).arrAt 2 cfg0.N = Gcn.matProd (M := 50000) (K := 256) (N := 128) (V c main_arg0) (V c main_arg3) :=
  (dat0 V c).arrAt_eq_of_cover 2 _ (fun t _ => flushed_eq V c t) covered

end Cert.KernelIdeal.Prod0

end
-- ==== Proof.Prod2.lean ====
/- Laid out by substitution from proof/Proof/Prod0.lean: python3 scratch/make_sibling.py proof/Proof/Prod0.lean proof/Proof/Prod2.lean 'first matrix-product launch=>second matrix-product launch' 'the 50000×256 node features times the 256×128 weights=>the 50000×128 activations of the layer before times the 128×128 weights' 'the same rows of the features, all 256 columns=>the same rows of the activations, all 128 columns' 'features(5000·t + p, k)=>activations(5000·t + p, k)' 'Prod0=>Prod2' 'cfg0=>cfg2' 'grid0=>grid2' 'win0_=>win2_' 'dat0=>dat2' 'after0_2=>after2_2' 'out0_2=>out2_2' 'k0_pay1=>k2_pay1' 'iblk0=>iblk2' 'flush0_2=>flush2_2' 'dot_S5000x256_S256x128_S5000x128_1_0_0_1_n_n=>dot_S5000x128_S128x128_S5000x128_1_0_0_1_n_n' 'S50000x256=>S50000x128' 'S5000x256=>S5000x128' 'S256x128=>S128x128' '(K := 256)=>(K := 128)' 'Fin 256=>Fin 128' '* 256 +=>* 128 +' 'main_arg0=>main_v51' 'main_arg3=>main_arg5' 'main_v36=>main_v52' '  unfold k2_pay1
  exact Gcn.kernelDot_apply=>  unfold k2_pay1
  rw [shapeCast_self]
  exact Gcn.kernelDot_apply' -/
/-
  The second matrix-product launch: the 50000×128 activations of the layer before times the 128×128 weights, ten blocks of 5000 rows.

  The output window's block at grid point t is rows 5000·t … 5000·t + 4999 of the result, all 128 columns; the left
  operand's block at t is the same rows of the activations, all 128 columns; the right operand's block is the whole
  weight array at every point. The body multiplies the two blocks over the whole contraction axis, so entry (p, q) of
  what point t writes back is the sum over k of activations(5000·t + p, k) · weights(k, q): block t of the one
  whole-array product. The ten blocks tile the result (row r lies in block r / 5000), so after the launch the result
  array IS the product of the two arrays as the launch found them.
-/
import proofs.«111941_j90589450207915_1_alg».proof.Proof.Gen.KernelIdeal.Frame
import proofs.«111941_j90589450207915_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Prod2

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row-blocked windows sit at block row t, the weights at block (0, 0). -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- The body's one stored value at an entry of the block: the contraction of the two loaded blocks. -/
theorem payload_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  rw [shapeCast_self]
  exact Gcn.kernelDot_apply (d := dot_S5000x128_S128x128_S5000x128_1_0_0_1_n_n) ⟨rfl, rfl, rfl, rfl, rfl, rfl⟩ x0 x1 _ p q

/-- The left operand's block at point t: rows 5000·t … of its array. -/
theorem lhs_block_apply (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v51 : Vec Ideal S50000x128 .f32) k := by
  obtain ⟨e0, e1, -⟩ := index_maps t
  unfold iblk2
  rw [View.read_apply]
  show V c main_v51 _ = V c main_v51 _
  refine congrArg (V c main_v51) (funext fun a => Fin.ext ?_)
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- The right operand's block at every point: its whole array. -/
theorem rhs_block_apply (c : Dev nD) (t : Fin cfg2.N) (x k : S128x128.Idx)
    (hk0 : (k 0).val = (x 0).val) (hk1 : (k 1).val = (x 1).val) :
    (iblk2 V c 1 t : Vec Ideal S128x128 .f32) x = (V c main_arg5 : Vec Ideal S128x128 .f32) k := by
  obtain ⟨-, -, e0, e1, -⟩ := index_maps t
  unfold iblk2
  rw [View.read_apply]
  show V c main_arg5 _ = V c main_arg5 _
  refine congrArg (V c main_arg5) (funext fun a => Fin.ext ?_)
  match a with
  | ⟨0, _⟩ => show win2_1.index t (0 : Fin 2) * 128 + 1 * (x 0).val = (k 0).val; rw [e0, hk0]; omega
  | ⟨1, _⟩ => show win2_1.index t (1 : Fin 2) * 128 + 1 * (x 1).val = (k 1).val; rw [e1, hk1]; omega

/-- What point t writes back is block t of the product of the two arrays as the launch finds them. -/
theorem flushed_eq (c : Dev nD) (t : Fin cfg2.N) :
    (dat2 V c).flushed 2 t = ((cfg2.win 2).blk t).view.read (Elt Ideal)
      (Gcn.matProd (M := 50000) (K := 128) (N := 128) (V c main_v51) (V c main_arg5)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨-, -, -, -, e0, e1, -⟩ := index_maps t
  refine funext fun (j : S5000x128.Idx) => ?_
  obtain ⟨p, q, rfl⟩ : ∃ (p : Fin 5000) (q : Fin 128), j = ix2 p q := ⟨j 0, j 1, eq_ix2 j⟩
  rw [View.read_apply]
  refine (payload_apply (iblk2 V c 0 t) (iblk2 V c 1 t) p q).trans ?_
  unfold Gcn.matProd
  refine Finset.sum_congr rfl fun k _ => ?_
  have hl := lhs_block_apply V c t (ix2 p k) (ix2 ((((cfg2.win 2).blk t).view.emb (ix2 p q)) 0) k)
    (by show win2_2.index t (0 : Fin 2) * 5000 + 1 * p.val = 5000 * t.val + p.val; rw [e0]; omega) rfl
  have hr := rhs_block_apply V c t (ix2 k q) (ix2 k ((((cfg2.win 2).blk t).view.emb (ix2 p q)) 1)) rfl
    (by show win2_2.index t (1 : Fin 2) * 128 + 1 * q.val = q.val; rw [e1]; omega)
  rw [hl, hr]

/-- An index of the result array is in point t's block iff each coordinate is in the block's range on its axis. -/
theorem mem_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v52).slice (win2_2.rect t)).set ↔ _
  rw [View.set_slice_whole, Rect.mem_set_unit]
  exact Iff.rfl

/-- Every block row is some point's. -/
theorem point_of_row : ∀ r : Fin 10, ∃ t : Fin cfg2.N, t.val = r.val :=
  (by decide +kernel : ∀ r : Fin 10, ∃ t : Fin grid2.N, t.val = r.val)

/-- The ten blocks tile the result array: row r is in block r / 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := point_of_row ⟨(i 0).val / 5000, by omega⟩
  have ht' : t.val = (i 0).val / 5000 := ht
  obtain ⟨-, -, -, -, e0, e1, -⟩ := index_maps t
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; rw [e0, ht']; omega
  | ⟨1, _⟩ => show win2_2.index t (1 : Fin 2) * 128 ≤ (i 1).val ∧ (i 1).val < win2_2.index t (1 : Fin 2) * 128 + 128; rw [e1]; omega

/-- After the launch the result array is the product of the two arrays as the launch found them. -/
theorem final (c : Dev nD) :
    (dat2 V c).arrAt 2 cfg2.N = Gcn.matProd (M := 50000) (K := 128) (N := 128) (V c main_v51) (V c main_arg5) :=
  (dat2 V c).arrAt_eq_of_cover 2 _ (fun t _ => flushed_eq V c t) covered

end Cert.KernelIdeal.Prod2

end
-- ==== Proof.Prod4.lean ====
/- Laid out by substitution from proof/Proof/Prod0.lean: python3 scratch/make_sibling.py proof/Proof/Prod0.lean proof/Proof/Prod4.lean 'first matrix-product launch=>third matrix-product launch' 'the 50000×256 node features times the 256×128 weights=>the 50000×128 activations of the layer before times the 128×128 weights' 'the same rows of the features, all 256 columns=>the same rows of the activations, all 128 columns' 'features(5000·t + p, k)=>activations(5000·t + p, k)' 'Prod0=>Prod4' 'cfg0=>cfg4' 'grid0=>grid4' 'win0_=>win4_' 'dat0=>dat4' 'after0_2=>after4_2' 'out0_2=>out4_2' 'k0_pay1=>k4_pay1' 'iblk0=>iblk4' 'flush0_2=>flush4_2' 'dot_S5000x256_S256x128_S5000x128_1_0_0_1_n_n=>dot_S5000x128_S128x128_S5000x128_1_0_0_1_n_n' 'S50000x256=>S50000x128' 'S5000x256=>S5000x128' 'S256x128=>S128x128' '(K := 256)=>(K := 128)' 'Fin 256=>Fin 128' '* 256 +=>* 128 +' 'main_arg0=>main_v67' 'main_arg3=>main_arg7' 'main_v36=>main_v68' '  unfold k4_pay1
  exact Gcn.kernelDot_apply=>  unfold k4_pay1
  rw [shapeCast_self]
  exact Gcn.kernelDot_apply' -/
/-
  The third matrix-product launch: the 50000×128 activations of the layer before times the 128×128 weights, ten blocks of 5000 rows.

  The output window's block at grid point t is rows 5000·t … 5000·t + 4999 of the result, all 128 columns; the left
  operand's block at t is the same rows of the activations, all 128 columns; the right operand's block is the whole
  weight array at every point. The body multiplies the two blocks over the whole contraction axis, so entry (p, q) of
  what point t writes back is the sum over k of activations(5000·t + p, k) · weights(k, q): block t of the one
  whole-array product. The ten blocks tile the result (row r lies in block r / 5000), so after the launch the result
  array IS the product of the two arrays as the launch found them.
-/
import proofs.«111941_j90589450207915_1_alg».proof.Proof.Gen.KernelIdeal.Frame
import proofs.«111941_j90589450207915_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Prod4

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row-blocked windows sit at block row t, the weights at block (0, 0). -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 10 :=
  (by decide +kernel : ∀ t : Fin grid4.N, _)

/-- The body's one stored value at an entry of the block: the contraction of the two loaded blocks. -/
theorem payload_apply (x0 : Vec Ideal S5000x128 .f32) (x1 : Vec Ideal S128x128 .f32) (p : Fin 5000) (q : Fin 128) :
    k4_pay1 x0 x1 (ix2 p q) = ∑ k : Fin 128, x0 (ix2 p k) * x1 (ix2 k q) := by
  unfold k4_pay1
  rw [shapeCast_self]
  exact Gcn.kernelDot_apply (d := dot_S5000x128_S128x128_S5000x128_1_0_0_1_n_n) ⟨rfl, rfl, rfl, rfl, rfl, rfl⟩ x0 x1 _ p q

/-- The left operand's block at point t: rows 5000·t … of its array. -/
theorem lhs_block_apply (c : Dev nD) (t : Fin cfg4.N) (x : S5000x128.Idx) (k : S50000x128.Idx)
    (hk0 : (k 0).val = 5000 * t.val + (x 0).val) (hk1 : (k 1).val = (x 1).val) :
    (iblk4 V c 0 t : Vec Ideal S5000x128 .f32) x = (V c main_v67 : Vec Ideal S50000x128 .f32) k := by
  obtain ⟨e0, e1, -⟩ := index_maps t
  unfold iblk4
  rw [View.read_apply]
  show V c main_v67 _ = V c main_v67 _
  refine congrArg (V c main_v67) (funext fun a => Fin.ext ?_)
  match a with
  | ⟨0, _⟩ => show win4_0.index t (0 : Fin 2) * 5000 + 1 * (x 0).val = (k 0).val; rw [e0, hk0]; omega
  | ⟨1, _⟩ => show win4_0.index t (1 : Fin 2) * 128 + 1 * (x 1).val = (k 1).val; rw [e1, hk1]; omega

/-- The right operand's block at every point: its whole array. -/
theorem rhs_block_apply (c : Dev nD) (t : Fin cfg4.N) (x k : S128x128.Idx)
    (hk0 : (k 0).val = (x 0).val) (hk1 : (k 1).val = (x 1).val) :
    (iblk4 V c 1 t : Vec Ideal S128x128 .f32) x = (V c main_arg7 : Vec Ideal S128x128 .f32) k := by
  obtain ⟨-, -, e0, e1, -⟩ := index_maps t
  unfold iblk4
  rw [View.read_apply]
  show V c main_arg7 _ = V c main_arg7 _
  refine congrArg (V c main_arg7) (funext fun a => Fin.ext ?_)
  match a with
  | ⟨0, _⟩ => show win4_1.index t (0 : Fin 2) * 128 + 1 * (x 0).val = (k 0).val; rw [e0, hk0]; omega
  | ⟨1, _⟩ => show win4_1.index t (1 : Fin 2) * 128 + 1 * (x 1).val = (k 1).val; rw [e1, hk1]; omega

/-- What point t writes back is block t of the product of the two arrays as the launch finds them. -/
theorem flushed_eq (c : Dev nD) (t : Fin cfg4.N) :
    (dat4 V c).flushed 2 t = ((cfg4.win 2).blk t).view.read (Elt Ideal)
      (Gcn.matProd (M := 50000) (K := 128) (N := 128) (V c main_v67) (V c main_arg7)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  obtain ⟨-, -, -, -, e0, e1, -⟩ := index_maps t
  refine funext fun (j : S5000x128.Idx) => ?_
  obtain ⟨p, q, rfl⟩ : ∃ (p : Fin 5000) (q : Fin 128), j = ix2 p q := ⟨j 0, j 1, eq_ix2 j⟩
  rw [View.read_apply]
  refine (payload_apply (iblk4 V c 0 t) (iblk4 V c 1 t) p q).trans ?_
  unfold Gcn.matProd
  refine Finset.sum_congr rfl fun k _ => ?_
  have hl := lhs_block_apply V c t (ix2 p k) (ix2 ((((cfg4.win 2).blk t).view.emb (ix2 p q)) 0) k)
    (by show win4_2.index t (0 : Fin 2) * 5000 + 1 * p.val = 5000 * t.val + p.val; rw [e0]; omega) rfl
  have hr := rhs_block_apply V c t (ix2 k q) (ix2 k ((((cfg4.win 2).blk t).view.emb (ix2 p q)) 1)) rfl
    (by show win4_2.index t (1 : Fin 2) * 128 + 1 * q.val = q.val; rw [e1]; omega)
  rw [hl, hr]

/-- An index of the result array is in point t's block iff each coordinate is in the block's range on its axis. -/
theorem mem_block (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v68).slice (win4_2.rect t)).set ↔ _
  rw [View.set_slice_whole, Rect.mem_set_unit]
  exact Iff.rfl

/-- Every block row is some point's. -/
theorem point_of_row : ∀ r : Fin 10, ∃ t : Fin cfg4.N, t.val = r.val :=
  (by decide +kernel : ∀ r : Fin 10, ∃ t : Fin grid4.N, t.val = r.val)

/-- The ten blocks tile the result array: row r is in block r / 5000. -/
theorem covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := point_of_row ⟨(i 0).val / 5000, by omega⟩
  have ht' : t.val = (i 0).val / 5000 := ht
  obtain ⟨-, -, -, -, e0, e1, -⟩ := index_maps t
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; rw [e0, ht']; omega
  | ⟨1, _⟩ => show win4_2.index t (1 : Fin 2) * 128 ≤ (i 1).val ∧ (i 1).val < win4_2.index t (1 : Fin 2) * 128 + 128; rw [e1]; omega

/-- After the launch the result array is the product of the two arrays as the launch found them. -/
theorem final (c : Dev nD) :
    (dat4 V c).arrAt 2 cfg4.N = Gcn.matProd (M := 50000) (K := 128) (N := 128) (V c main_v67) (V c main_arg7) :=
  (dat4 V c).arrAt_eq_of_cover 2 _ (fun t _ => flushed_eq V c t) covered

end Cert.KernelIdeal.Prod4

end
-- ==== Proof.Act1.lean ====
/-
  The first bias-and-clamp launch: the 1×128 bias row added to every row of the 50000×128 aggregated features,
  every entry then clamped below at the value of the all-zero word; ten blocks of 5000 rows.

  The output window's block at grid point t is rows 5000·t … 5000·t + 4999 of the result, all 128 columns; the
  features' block at t is the same rows of the features; the bias's block is the whole 1×128 array at every point.
  The body works entry by entry: entry (p, q) of what point t writes back is
  max (features(5000·t + p, q) + bias(0, q)) z, z the value of the all-zero word, which is entry (5000·t + p, q) of
  the one whole-array function. The ten blocks tile the result (row r lies in block r / 5000), so after the launch
  the result array IS that function of the two arrays as the launch found them.
-/
import proofs.«111941_j90589450207915_1_alg».proof.Proof.Gen.KernelIdeal.Frame
import proofs.«111941_j90589450207915_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Act1

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the row-blocked windows sit at block row t, the bias at block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- The bias row spread over the rows of a block, read at entry (p, q): the row's entry q. -/
theorem spread_apply (x1 : Vec Ideal S1x128 .f32) (p : Fin 5000) (q : Fin 128) :
    broadcastTo S5000x128 x1 broadcasts_S1x128_S5000x128 (ix2 p q) = x1 (ix2 0 q) :=
  broadcastTo_apply x1 broadcasts_S1x128_S5000x128 (ix2 p q) (ix2 0 q) (fun a => by
    match a with
    | ⟨0, _⟩ => rfl
    | ⟨1, _⟩ => rfl)

/-- The body's one stored value at an entry of the block: the sum of the feature entry and the bias entry of its
    column, clamped below at the value of the all-zero word. -/
theorem payload_apply (x0 : Vec Ideal S5000x128 .f32) (x1 : Vec Ideal S1x128 .f32) (p : Fin 5000) (q : Fin 128) :
    k1_pay1 x0 x1 (ix2 p q) = max (x0 (ix2 p q) + x1 (ix2 0 q)) (Ideal.ofBits .f32 0x00000000#32) := by
  unfold k1_pay1
  have e0 : shapeCast S5000x128 x0 shapeCasts_S5000x128_S5000x128 = x0 := shapeCast_self x0 _
  have e1 : shapeCast S1x128 x1 shapeCasts_S1x128_S1x128 = x1 := shapeCast_self x1 _
  show max (shapeCast S5000x128 x0 shapeCasts_S5000x128_S5000x128 (ix2 p q)
      + broadcastTo S5000x128 (shapeCast S1x128 x1 shapeCasts_S1x128_S1x128) broadcasts_S1x128_S5000x128 (ix2 p q))
    (Ideal.ofBits .f32 0x00000000#32) = _
  refine congrArg (fun z => max z (Ideal.ofBits .f32 0x00000000#32)) ?_
  refine congrArg₂ (fun (a b : Ideal .f32) => a + b) (congrFun e0 (ix2 p q)) ?_
  refine (congrFun (congrArg (fun v => broadcastTo S5000x128 v broadcasts_S1x128_S5000x128) e1) (ix2 p q)).trans ?_
  exact spread_apply x1 p q

/-- The features' block at point t: rows 5000·t … of their array. -/
theorem feat_block_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v49 : Vec Ideal S50000x128 .f32) k := by
  obtain ⟨e0, e1, -⟩ := index_maps t
  unfold iblk1
  rw [View.read_apply]
  show V c main_v49 _ = V c main_v49 _
  refine congrArg (V c main_v49) (funext fun a => Fin.ext ?_)
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The bias's block at every point: its whole array. -/
theorem bias_block_apply (c : Dev nD) (t : Fin cfg1.N) (x : S1x128.Idx) :
    (iblk1 V c 1 t : Vec Ideal S1x128 .f32) x = (V c main_v50 : Vec Ideal S1x128 .f32) x := by
  obtain ⟨-, -, e0, e1, -⟩ := index_maps t
  unfold iblk1
  rw [View.read_apply]
  show V c main_v50 _ = V c main_v50 _
  refine congrArg (V c main_v50) (funext fun a => Fin.ext ?_)
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- The entry-by-entry value at an index k of the whole array whose column is q is the whole-array function at k. -/
theorem entry_eq (A : Vec Ideal S50000x128 .f32) (B : Vec Ideal S1x128 .f32) (k : S50000x128.Idx) (q : Fin 128)
    (h : (k 1).val = q.val) :
    max (A k + B (ix2 0 q)) (Ideal.ofBits .f32 0x00000000#32) = Gcn.biasRelu (M := 50000) (N := 128) A B k := by
  unfold Gcn.biasRelu
  refine congrArg (fun z : S1x128.Idx => max (A k + B z) (Ideal.ofBits .f32 0x00000000#32)) (funext fun a => Fin.ext ?_)
  match a with
  | ⟨0, _⟩ => rfl
  | ⟨1, _⟩ => exact h.symm

/-- What point t writes back is block t of the bias-and-clamp of the two arrays as the launch finds them. -/
theorem flushed_eq (c : Dev nD) (t : Fin cfg1.N) :
    (dat1 V c).flushed 2 t = ((cfg1.win 2).blk t).view.read (Elt Ideal)
      (Gcn.biasRelu (M := 50000) (N := 128) (V c main_v49) (V c main_v50)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨-, -, -, -, e0, e1, -⟩ := index_maps t
  refine funext fun (j : S5000x128.Idx) => ?_
  obtain ⟨p, q, rfl⟩ : ∃ (p : Fin 5000) (q : Fin 128), j = ix2 p q := ⟨j 0, j 1, eq_ix2 j⟩
  rw [View.read_apply]
  refine (payload_apply (iblk1 V c 0 t) (iblk1 V c 1 t) p q).trans ?_
  have hl := feat_block_apply V c t (ix2 p q) (((cfg1.win 2).blk t).view.emb (ix2 p q))
    (by show win1_2.index t (0 : Fin 2) * 5000 + 1 * p.val = 5000 * t.val + p.val; rw [e0]; omega)
    (by show win1_2.index t (1 : Fin 2) * 128 + 1 * q.val = q.val; rw [e1]; omega)
  have hr := bias_block_apply V c t (ix2 0 q)
  rw [hl, hr]
  exact entry_eq (V c main_v49) (V c main_v50) _ q
    (by show win1_2.index t (1 : Fin 2) * 128 + 1 * q.val = q.val; rw [e1]; omega)

/-- An index of the result array is in point t's block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v51).slice (win1_2.rect t)).set ↔ _
  rw [View.set_slice_whole, Rect.mem_set_unit]
  exact Iff.rfl

/-- Every block row is some point's. -/
theorem point_of_row : ∀ r : Fin 10, ∃ t : Fin cfg1.N, t.val = r.val :=
  (by decide +kernel : ∀ r : Fin 10, ∃ t : Fin grid1.N, t.val = r.val)

/-- The ten blocks tile the result array: row r is in block r / 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := point_of_row ⟨(i 0).val / 5000, by omega⟩
  have ht' : t.val = (i 0).val / 5000 := ht
  obtain ⟨-, -, -, -, e0, e1, -⟩ := index_maps t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; rw [e0, ht']; omega
  | ⟨1, _⟩ => show win1_2.index t (1 : Fin 2) * 128 ≤ (i 1).val ∧ (i 1).val < win1_2.index t (1 : Fin 2) * 128 + 128; rw [e1]; omega

/-- After the launch the result array is the bias-and-clamp of the two arrays as the launch found them. -/
theorem final (c : Dev nD) :
    (dat1 V c).arrAt 2 cfg1.N = Gcn.biasRelu (M := 50000) (N := 128) (V c main_v49) (V c main_v50) :=
  (dat1 V c).arrAt_eq_of_cover 2 _ (fun t _ => flushed_eq V c t) covered

end Cert.KernelIdeal.Act1

end
-- ==== Proof.Act3.lean ====
/-
  The second bias-and-clamp launch: the 1×128 bias row added to every row of the 50000×128 aggregated features,
  every entry then clamped below at the value of the all-zero word; ten blocks of 5000 rows.

  The output window's block at grid point t is rows 5000·t … 5000·t + 4999 of the result, all 128 columns; the
  features' block at t is the same rows of the features; the bias's block is the whole 1×128 array at every point.
  The body works entry by entry: entry (p, q) of what point t writes back is
  max (features(5000·t + p, q) + bias(0, q)) z, z the value of the all-zero word, which is entry (5000·t + p, q) of
  the one whole-array function. The ten blocks tile the result (row r lies in block r / 5000), so after the launch
  the result array IS that function of the two arrays as the launch found them.
-/
import proofs.«111941_j90589450207915_1_alg».proof.Proof.Gen.KernelIdeal.Frame
import proofs.«111941_j90589450207915_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Act3

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the row-blocked windows sit at block row t, the bias at block (0, 0). -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- The bias row spread over the rows of a block, read at entry (p, q): the row's entry q. -/
theorem spread_apply (x1 : Vec Ideal S1x128 .f32) (p : Fin 5000) (q : Fin 128) :
    broadcastTo S5000x128 x1 broadcasts_S1x128_S5000x128 (ix2 p q) = x1 (ix2 0 q) :=
  broadcastTo_apply x1 broadcasts_S1x128_S5000x128 (ix2 p q) (ix2 0 q) (fun a => by
    match a with
    | ⟨0, _⟩ => rfl
    | ⟨1, _⟩ => rfl)

/-- The body's one stored value at an entry of the block: the sum of the feature entry and the bias entry of its
    column, clamped below at the value of the all-zero word. -/
theorem payload_apply (x0 : Vec Ideal S5000x128 .f32) (x1 : Vec Ideal S1x128 .f32) (p : Fin 5000) (q : Fin 128) :
    k3_pay1 x0 x1 (ix2 p q) = max (x0 (ix2 p q) + x1 (ix2 0 q)) (Ideal.ofBits .f32 0x00000000#32) := by
  unfold k3_pay1
  have e0 : shapeCast S5000x128 x0 shapeCasts_S5000x128_S5000x128 = x0 := shapeCast_self x0 _
  have e1 : shapeCast S1x128 x1 shapeCasts_S1x128_S1x128 = x1 := shapeCast_self x1 _
  show max (shapeCast S5000x128 x0 shapeCasts_S5000x128_S5000x128 (ix2 p q)
      + broadcastTo S5000x128 (shapeCast S1x128 x1 shapeCasts_S1x128_S1x128) broadcasts_S1x128_S5000x128 (ix2 p q))
    (Ideal.ofBits .f32 0x00000000#32) = _
  refine congrArg (fun z => max z (Ideal.ofBits .f32 0x00000000#32)) ?_
  refine congrArg₂ (fun (a b : Ideal .f32) => a + b) (congrFun e0 (ix2 p q)) ?_
  refine (congrFun (congrArg (fun v => broadcastTo S5000x128 v broadcasts_S1x128_S5000x128) e1) (ix2 p q)).trans ?_
  exact spread_apply x1 p q

/-- The features' block at point t: rows 5000·t … of their array. -/
theorem feat_block_apply (c : Dev nD) (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = (V c main_v65 : Vec Ideal S50000x128 .f32) k := by
  obtain ⟨e0, e1, -⟩ := index_maps t
  unfold iblk3
  rw [View.read_apply]
  show V c main_v65 _ = V c main_v65 _
  refine congrArg (V c main_v65) (funext fun a => Fin.ext ?_)
  match a with
  | ⟨0, _⟩ => show win3_0.index t (0 : Fin 2) * 5000 + 1 * (x 0).val = (k 0).val; rw [e0, hk0]; omega
  | ⟨1, _⟩ => show win3_0.index t (1 : Fin 2) * 128 + 1 * (x 1).val = (k 1).val; rw [e1, hk1]; omega

/-- The bias's block at every point: its whole array. -/
theorem bias_block_apply (c : Dev nD) (t : Fin cfg3.N) (x : S1x128.Idx) :
    (iblk3 V c 1 t : Vec Ideal S1x128 .f32) x = (V c main_v66 : Vec Ideal S1x128 .f32) x := by
  obtain ⟨-, -, e0, e1, -⟩ := index_maps t
  unfold iblk3
  rw [View.read_apply]
  show V c main_v66 _ = V c main_v66 _
  refine congrArg (V c main_v66) (funext fun a => Fin.ext ?_)
  match a with
  | ⟨0, _⟩ => show win3_1.index t (0 : Fin 2) * 1 + 1 * (x 0).val = (x 0).val; rw [e0]; omega
  | ⟨1, _⟩ => show win3_1.index t (1 : Fin 2) * 128 + 1 * (x 1).val = (x 1).val; rw [e1]; omega

/-- The entry-by-entry value at an index k of the whole array whose column is q is the whole-array function at k. -/
theorem entry_eq (A : Vec Ideal S50000x128 .f32) (B : Vec Ideal S1x128 .f32) (k : S50000x128.Idx) (q : Fin 128)
    (h : (k 1).val = q.val) :
    max (A k + B (ix2 0 q)) (Ideal.ofBits .f32 0x00000000#32) = Gcn.biasRelu (M := 50000) (N := 128) A B k := by
  unfold Gcn.biasRelu
  refine congrArg (fun z : S1x128.Idx => max (A k + B z) (Ideal.ofBits .f32 0x00000000#32)) (funext fun a => Fin.ext ?_)
  match a with
  | ⟨0, _⟩ => rfl
  | ⟨1, _⟩ => exact h.symm

/-- What point t writes back is block t of the bias-and-clamp of the two arrays as the launch finds them. -/
theorem flushed_eq (c : Dev nD) (t : Fin cfg3.N) :
    (dat3 V c).flushed 2 t = ((cfg3.win 2).blk t).view.read (Elt Ideal)
      (Gcn.biasRelu (M := 50000) (N := 128) (V c main_v65) (V c main_v66)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨-, -, -, -, e0, e1, -⟩ := index_maps t
  refine funext fun (j : S5000x128.Idx) => ?_
  obtain ⟨p, q, rfl⟩ : ∃ (p : Fin 5000) (q : Fin 128), j = ix2 p q := ⟨j 0, j 1, eq_ix2 j⟩
  rw [View.read_apply]
  refine (payload_apply (iblk3 V c 0 t) (iblk3 V c 1 t) p q).trans ?_
  have hl := feat_block_apply V c t (ix2 p q) (((cfg3.win 2).blk t).view.emb (ix2 p q))
    (by show win3_2.index t (0 : Fin 2) * 5000 + 1 * p.val = 5000 * t.val + p.val; rw [e0]; omega)
    (by show win3_2.index t (1 : Fin 2) * 128 + 1 * q.val = q.val; rw [e1]; omega)
  have hr := bias_block_apply V c t (ix2 0 q)
  rw [hl, hr]
  exact entry_eq (V c main_v65) (V c main_v66) _ q
    (by show win3_2.index t (1 : Fin 2) * 128 + 1 * q.val = q.val; rw [e1]; omega)

/-- An index of the result array is in point t's block iff each coordinate is in the block's range on its axis. -/
theorem mem_block (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v67).slice (win3_2.rect t)).set ↔ _
  rw [View.set_slice_whole, Rect.mem_set_unit]
  exact Iff.rfl

/-- Every block row is some point's. -/
theorem point_of_row : ∀ r : Fin 10, ∃ t : Fin cfg3.N, t.val = r.val :=
  (by decide +kernel : ∀ r : Fin 10, ∃ t : Fin grid3.N, t.val = r.val)

/-- The ten blocks tile the result array: row r is in block r / 5000. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := point_of_row ⟨(i 0).val / 5000, by omega⟩
  have ht' : t.val = (i 0).val / 5000 := ht
  obtain ⟨-, -, -, -, e0, e1, -⟩ := index_maps t
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; rw [e0, ht']; omega
  | ⟨1, _⟩ => show win3_2.index t (1 : Fin 2) * 128 ≤ (i 1).val ∧ (i 1).val < win3_2.index t (1 : Fin 2) * 128 + 128; rw [e1]; omega

/-- After the launch the result array is the bias-and-clamp of the two arrays as the launch found them. -/
theorem final (c : Dev nD) :
    (dat3 V c).arrAt 2 cfg3.N = Gcn.biasRelu (M := 50000) (N := 128) (V c main_v65) (V c main_v66) :=
  (dat3 V c).arrAt_eq_of_cover 2 _ (fun t _ => flushed_eq V c t) covered

end Cert.KernelIdeal.Act3

end
-- ==== Proof.Act5.lean ====
/-
  The third bias-and-clamp launch: the 1×128 bias row added to every row of the 50000×128 aggregated features,
  every entry then clamped below at the value of the all-zero word; ten blocks of 5000 rows.

  The output window's block at grid point t is rows 5000·t … 5000·t + 4999 of the result, all 128 columns; the
  features' block at t is the same rows of the features; the bias's block is the whole 1×128 array at every point.
  The body works entry by entry: entry (p, q) of what point t writes back is
  max (features(5000·t + p, q) + bias(0, q)) z, z the value of the all-zero word, which is entry (5000·t + p, q) of
  the one whole-array function. The ten blocks tile the result (row r lies in block r / 5000), so after the launch
  the result array IS that function of the two arrays as the launch found them.
-/
import proofs.«111941_j90589450207915_1_alg».proof.Proof.Gen.KernelIdeal.Frame
import proofs.«111941_j90589450207915_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Act5

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the row-blocked windows sit at block row t, the bias at block (0, 0). -/
theorem index_maps : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 ∧ t.val < 10 :=
  (by decide +kernel : ∀ t : Fin grid5.N, _)

/-- The bias row spread over the rows of a block, read at entry (p, q): the row's entry q. -/
theorem spread_apply (x1 : Vec Ideal S1x128 .f32) (p : Fin 5000) (q : Fin 128) :
    broadcastTo S5000x128 x1 broadcasts_S1x128_S5000x128 (ix2 p q) = x1 (ix2 0 q) :=
  broadcastTo_apply x1 broadcasts_S1x128_S5000x128 (ix2 p q) (ix2 0 q) (fun a => by
    match a with
    | ⟨0, _⟩ => rfl
    | ⟨1, _⟩ => rfl)

/-- The body's one stored value at an entry of the block: the sum of the feature entry and the bias entry of its
    column, clamped below at the value of the all-zero word. -/
theorem payload_apply (x0 : Vec Ideal S5000x128 .f32) (x1 : Vec Ideal S1x128 .f32) (p : Fin 5000) (q : Fin 128) :
    k5_pay1 x0 x1 (ix2 p q) = max (x0 (ix2 p q) + x1 (ix2 0 q)) (Ideal.ofBits .f32 0x00000000#32) := by
  unfold k5_pay1
  have e0 : shapeCast S5000x128 x0 shapeCasts_S5000x128_S5000x128 = x0 := shapeCast_self x0 _
  have e1 : shapeCast S1x128 x1 shapeCasts_S1x128_S1x128 = x1 := shapeCast_self x1 _
  show max (shapeCast S5000x128 x0 shapeCasts_S5000x128_S5000x128 (ix2 p q)
      + broadcastTo S5000x128 (shapeCast S1x128 x1 shapeCasts_S1x128_S1x128) broadcasts_S1x128_S5000x128 (ix2 p q))
    (Ideal.ofBits .f32 0x00000000#32) = _
  refine congrArg (fun z => max z (Ideal.ofBits .f32 0x00000000#32)) ?_
  refine congrArg₂ (fun (a b : Ideal .f32) => a + b) (congrFun e0 (ix2 p q)) ?_
  refine (congrFun (congrArg (fun v => broadcastTo S5000x128 v broadcasts_S1x128_S5000x128) e1) (ix2 p q)).trans ?_
  exact spread_apply x1 p q

/-- The features' block at point t: rows 5000·t … of their array. -/
theorem feat_block_apply (c : Dev nD) (t : Fin cfg5.N) (x : S5000x128.Idx) (k : S50000x128.Idx)
    (hk0 : (k 0).val = 5000 * t.val + (x 0).val) (hk1 : (k 1).val = (x 1).val) :
    (iblk5 V c 0 t : Vec Ideal S5000x128 .f32) x = (V c main_v81 : Vec Ideal S50000x128 .f32) k := by
  obtain ⟨e0, e1, -⟩ := index_maps t
  unfold iblk5
  rw [View.read_apply]
  show V c main_v81 _ = V c main_v81 _
  refine congrArg (V c main_v81) (funext fun a => Fin.ext ?_)
  match a with
  | ⟨0, _⟩ => show win5_0.index t (0 : Fin 2) * 5000 + 1 * (x 0).val = (k 0).val; rw [e0, hk0]; omega
  | ⟨1, _⟩ => show win5_0.index t (1 : Fin 2) * 128 + 1 * (x 1).val = (k 1).val; rw [e1, hk1]; omega

/-- The bias's block at every point: its whole array. -/
theorem bias_block_apply (c : Dev nD) (t : Fin cfg5.N) (x : S1x128.Idx) :
    (iblk5 V c 1 t : Vec Ideal S1x128 .f32) x = (V c main_v82 : Vec Ideal S1x128 .f32) x := by
  obtain ⟨-, -, e0, e1, -⟩ := index_maps t
  unfold iblk5
  rw [View.read_apply]
  show V c main_v82 _ = V c main_v82 _
  refine congrArg (V c main_v82) (funext fun a => Fin.ext ?_)
  match a with
  | ⟨0, _⟩ => show win5_1.index t (0 : Fin 2) * 1 + 1 * (x 0).val = (x 0).val; rw [e0]; omega
  | ⟨1, _⟩ => show win5_1.index t (1 : Fin 2) * 128 + 1 * (x 1).val = (x 1).val; rw [e1]; omega

/-- The entry-by-entry value at an index k of the whole array whose column is q is the whole-array function at k. -/
theorem entry_eq (A : Vec Ideal S50000x128 .f32) (B : Vec Ideal S1x128 .f32) (k : S50000x128.Idx) (q : Fin 128)
    (h : (k 1).val = q.val) :
    max (A k + B (ix2 0 q)) (Ideal.ofBits .f32 0x00000000#32) = Gcn.biasRelu (M := 50000) (N := 128) A B k := by
  unfold Gcn.biasRelu
  refine congrArg (fun z : S1x128.Idx => max (A k + B z) (Ideal.ofBits .f32 0x00000000#32)) (funext fun a => Fin.ext ?_)
  match a with
  | ⟨0, _⟩ => rfl
  | ⟨1, _⟩ => exact h.symm

/-- What point t writes back is block t of the bias-and-clamp of the two arrays as the launch finds them. -/
theorem flushed_eq (c : Dev nD) (t : Fin cfg5.N) :
    (dat5 V c).flushed 2 t = ((cfg5.win 2).blk t).view.read (Elt Ideal)
      (Gcn.biasRelu (M := 50000) (N := 128) (V c main_v81) (V c main_v82)) := by
  show (cfg5.win 2).cut (grid5.coords t) ((dat5 V c).after 2 t) = _
  rw [after5_2]
  unfold out5_2
  rw [View.canon_unit_zero zero_offsets]
  simp only [View.ld_unit_zero (S := S5000x128) zero_offsets, View.ld_unit_zero (S := S1x128) zero_offsets]
  obtain ⟨-, -, -, -, e0, e1, -⟩ := index_maps t
  refine funext fun (j : S5000x128.Idx) => ?_
  obtain ⟨p, q, rfl⟩ : ∃ (p : Fin 5000) (q : Fin 128), j = ix2 p q := ⟨j 0, j 1, eq_ix2 j⟩
  rw [View.read_apply]
  refine (payload_apply (iblk5 V c 0 t) (iblk5 V c 1 t) p q).trans ?_
  have hl := feat_block_apply V c t (ix2 p q) (((cfg5.win 2).blk t).view.emb (ix2 p q))
    (by show win5_2.index t (0 : Fin 2) * 5000 + 1 * p.val = 5000 * t.val + p.val; rw [e0]; omega)
    (by show win5_2.index t (1 : Fin 2) * 128 + 1 * q.val = q.val; rw [e1]; omega)
  have hr := bias_block_apply V c t (ix2 0 q)
  rw [hl, hr]
  exact entry_eq (V c main_v81) (V c main_v82) _ q
    (by show win5_2.index t (1 : Fin 2) * 128 + 1 * q.val = q.val; rw [e1]; omega)

/-- An index of the result array is in point t's block iff each coordinate is in the block's range on its axis. -/
theorem mem_block (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v83).slice (win5_2.rect t)).set ↔ _
  rw [View.set_slice_whole, Rect.mem_set_unit]
  exact Iff.rfl

/-- Every block row is some point's. -/
theorem point_of_row : ∀ r : Fin 10, ∃ t : Fin cfg5.N, t.val = r.val :=
  (by decide +kernel : ∀ r : Fin 10, ∃ t : Fin grid5.N, t.val = r.val)

/-- The ten blocks tile the result array: row r is in block r / 5000. -/
theorem covered (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := point_of_row ⟨(i 0).val / 5000, by omega⟩
  have ht' : t.val = (i 0).val / 5000 := ht
  obtain ⟨-, -, -, -, e0, e1, -⟩ := index_maps t
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; rw [e0, ht']; omega
  | ⟨1, _⟩ => show win5_2.index t (1 : Fin 2) * 128 ≤ (i 1).val ∧ (i 1).val < win5_2.index t (1 : Fin 2) * 128 + 128; rw [e1]; omega

/-- After the launch the result array is the bias-and-clamp of the two arrays as the launch found them. -/
theorem final (c : Dev nD) :
    (dat5 V c).arrAt 2 cfg5.N = Gcn.biasRelu (M := 50000) (N := 128) (V c main_v81) (V c main_v82) :=
  (dat5 V c).arrAt_eq_of_cover 2 _ (fun t _ => flushed_eq V c t) covered

end Cert.KernelIdeal.Act5

end
-- ==== Proof.Layers.lean ====
/-
  The three layers of the network in the kernel's program, matched to the reference's stages boundary by boundary.

  Each layer is: a product launch (the features times the layer's weights), a stretch of host operations (gather the
  product's rows at the source indices, scale every gathered row by its edge's normalisation, scatter-add the rows at
  the target indices, and make the bias vector a 1×128 row), and a bias-and-clamp launch. The reference does the product
  and the bias-and-clamp as host operations and the stretch between them as THE SAME host operations. The index vectors
  and the normalisation were computed before the first launch and no later segment writes them, so every layer's stretch
  reads the same three arrays; the arguments are never written at all.

  So, by induction along the program: the first product is the reference's product of the same arguments; the stretch
  after it applies the same operations to equal operands; the bias-and-clamp launch is the reference's add-and-maximum;
  and its output is the next layer's input.
-/
import proofs.«111941_j90589450207915_1_alg».proof.Proof.Gen.KernelIdeal.Frame
import proofs.«111941_j90589450207915_1_alg».proof.Proof.Gen.ReferenceIdeal.Read
import proofs.«111941_j90589450207915_1_alg».proof.Proof.Spec
import proofs.«111941_j90589450207915_1_alg».proof.Proof.ActHost
import proofs.«111941_j90589450207915_1_alg».proof.Proof.Keeps
import proofs.«111941_j90589450207915_1_alg».proof.Proof.Prelude
import proofs.«111941_j90589450207915_1_alg».proof.Proof.Prod0
import proofs.«111941_j90589450207915_1_alg».proof.Proof.Prod2
import proofs.«111941_j90589450207915_1_alg».proof.Proof.Prod4
import proofs.«111941_j90589450207915_1_alg».proof.Proof.Act1
import proofs.«111941_j90589450207915_1_alg».proof.Proof.Act3
import proofs.«111941_j90589450207915_1_alg».proof.Proof.Act5
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Layers

open Cert.KernelIdeal Cert.KernelIdeal.Gen Cert.ReferenceIdeal.Read

variable (m : (ℓ : Loc nD τ sig) → Buf (Elt Ideal) ℓ) (ρ : Dev nD → PrngReg) (c : Dev nD)

-- the nine argument arrays as launched: node features, edge indices, edge weights, and three (weights, bias) pairs
set_option quotPrecheck false
local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)
local notation "x₆" => m ((c : Thread nD τ).loc main_arg6)
local notation "x₇" => m ((c : Thread nD τ).loc main_arg7)
local notation "x₈" => m ((c : Thread nD τ).loc main_arg8)

/-- The reference's two contractions are plain matrix products. -/
theorem plain256 : PlainDot.IsPlain Cert.ReferenceIdeal.dot_S50000x256_S256x128_S50000x128_1_0_0_1_n_n := ⟨rfl, rfl, rfl, rfl, rfl, rfl⟩
theorem plain128 : PlainDot.IsPlain Cert.ReferenceIdeal.dot_S50000x128_S128x128_S50000x128_1_0_0_1_n_n := ⟨rfl, rfl, rfl, rfl, rfl, rfl⟩

/-! ## The first layer -/

/-- The first launch's output is the reference's product of the features and the first weights. -/
theorem prod1 : W6 m ρ c (Proc.devRef .tc main_v36) = val_main_v36 (F := Ideal) x₀ x₃ := by
  refine (W6_arr m ρ c 2).trans ((Prod0.final (V5 m ρ) c).trans ?_)
  exact (congrArg₂ (Gcn.matProd (M := 50000) (K := 256) (N := 128))
    (Keeps.prelude m ρ c main_arg0 (by decide)) (Keeps.prelude m ρ c main_arg3 (by decide))).trans
    (Gcn.hostDot_eq plain256 _ _).symm

/-- The source indices, target indices and normalisation at the first stretch's entry. -/
theorem src6 : W6 m ρ c (Proc.devRef .tc main_v3) = val_main_v3 (F := Ideal) x₁ :=
  (Keeps.launch0 m ρ c main_v3 (by decide)).trans (Prelude.src5 m ρ c)
theorem dst6 : W6 m ρ c (Proc.devRef .tc main_v7) = val_main_v7 (F := Ideal) x₁ :=
  (Keeps.launch0 m ρ c main_v7 (by decide)).trans (Prelude.dst5 m ρ c)
theorem nrm6 : W6 m ρ c (Proc.devRef .tc main_v35) = val_main_v35 (F := Ideal) x₁ x₂ :=
  (Keeps.launch0 m ρ c main_v35 (by decide)).trans (Prelude.nrm5 m ρ c)

set_option maxHeartbeats 4000000 in
/-- The first stretch's scatter-add is the reference's: the same operations on equal operands. -/
theorem agg1 : W7 m ρ c (Proc.devRef .tc main_v49) = val_main_v49 (F := Ideal) x₀ x₁ x₂ x₃ := by
  have eh := prod1 m ρ c
  have es := src6 m ρ c
  have ed := dst6 m ρ c
  have en := nrm6 m ρ c
  show StableHlo.after hostOps1 (W6 m ρ c) (Proc.devRef .tc main_v49) = _
  generalize W6 m ρ c = V at eh es ed en ⊢
  after_results_simp
  rw [eh, es, ed, en]
  rfl

set_option maxHeartbeats 4000000 in
/-- The first bias as a 1×128 row: a reshape of the argument. -/
theorem row1 : W7 m ρ c (Proc.devRef .tc main_v50)
    = shapeCast S1x128 (x₄ : Vec Ideal S128 .f32) Cert.KernelIdeal.Gen.shapeCasts_S128_S1x128 := by
  have eb := (Keeps.launch0 m ρ c main_arg4 (by decide)).trans (Keeps.prelude m ρ c main_arg4 (by decide))
  show StableHlo.after hostOps1 (W6 m ρ c) (Proc.devRef .tc main_v50) = _
  generalize W6 m ρ c = V at eb ⊢
  after_results_simp
  rw [eb]
  rfl

/-- The first bias-and-clamp launch's output is the reference's first activation. -/
theorem act1 : W8 m ρ c (Proc.devRef .tc main_v51) = val_main_v53 (F := Ideal) x₀ x₁ x₂ x₃ x₄ := by
  refine (W8_arr m ρ c 2).trans ((Act1.final (V7 m ρ) c).trans ?_)
  refine (congrArg₂ (Gcn.biasRelu (M := 50000) (N := 128)) (agg1 m ρ c) (row1 m ρ c)).trans ?_
  exact Gcn.biasRelu_eq_host _ _ _ Cert.ReferenceIdeal.Gen.bcast_S128_S1x128_1
    Cert.ReferenceIdeal.Gen.bcast_S1x128_S50000x128_0_1 Cert.ReferenceIdeal.Gen.bcast_S_S50000x128

/-! ## The second layer -/

/-- The second product launch's output is the reference's product of the first activation and the second weights. -/
theorem prod2 : W9 m ρ c (Proc.devRef .tc main_v52) = val_main_v54 (F := Ideal) x₀ x₁ x₂ x₃ x₄ x₅ := by
  refine (W9_arr m ρ c 2).trans ((Prod2.final (V8 m ρ) c).trans ?_)
  have ew : W8 m ρ c (Proc.devRef .tc main_arg5) = x₅ :=
    (Keeps.launch1 m ρ c main_arg5 (by decide)).trans <| (Keeps.spread1 m ρ c main_arg5 (by decide)).trans <|
    (Keeps.launch0 m ρ c main_arg5 (by decide)).trans (Keeps.prelude m ρ c main_arg5 (by decide))
  exact (congrArg₂ (Gcn.matProd (M := 50000) (K := 128) (N := 128)) (act1 m ρ c) ew).trans
    (Gcn.hostDot_eq plain128 _ _).symm

theorem src9 : W9 m ρ c (Proc.devRef .tc main_v3) = val_main_v3 (F := Ideal) x₁ :=
  (Keeps.launch2 m ρ c main_v3 (by decide)).trans <| (Keeps.launch1 m ρ c main_v3 (by decide)).trans <|
  (Keeps.spread1 m ρ c main_v3 (by decide)).trans (src6 m ρ c)
theorem dst9 : W9 m ρ c (Proc.devRef .tc main_v7) = val_main_v7 (F := Ideal) x₁ :=
  (Keeps.launch2 m ρ c main_v7 (by decide)).trans <| (Keeps.launch1 m ρ c main_v7 (by decide)).trans <|
  (Keeps.spread1 m ρ c main_v7 (by decide)).trans (dst6 m ρ c)
theorem nrm9 : W9 m ρ c (Proc.devRef .tc main_v35) = val_main_v35 (F := Ideal) x₁ x₂ :=
  (Keeps.launch2 m ρ c main_v35 (by decide)).trans <| (Keeps.launch1 m ρ c main_v35 (by decide)).trans <|
  (Keeps.spread1 m ρ c main_v35 (by decide)).trans (nrm6 m ρ c)

set_option maxHeartbeats 4000000 in
theorem agg2 : W10 m ρ c (Proc.devRef .tc main_v65) = val_main_v67 (F := Ideal) x₀ x₁ x₂ x₃ x₄ x₅ := by
  have eh := prod2 m ρ c
  have es := src9 m ρ c
  have ed := dst9 m ρ c
  have en := nrm9 m ρ c
  show StableHlo.after hostOps3 (W9 m ρ c) (Proc.devRef .tc main_v65) = _
  generalize W9 m ρ c = V at eh es ed en ⊢
  after_results_simp
  rw [eh, es, ed, en]
  rfl

set_option maxHeartbeats 4000000 in
theorem row2 : W10 m ρ c (Proc.devRef .tc main_v66)
    = shapeCast S1x128 (x₆ : Vec Ideal S128 .f32) Cert.KernelIdeal.Gen.shapeCasts_S128_S1x128 := by
  have eb : W9 m ρ c (Proc.devRef .tc main_arg6) = x₆ :=
    (Keeps.launch2 m ρ c main_arg6 (by decide)).trans <| (Keeps.launch1 m ρ c main_arg6 (by decide)).trans <|
    (Keeps.spread1 m ρ c main_arg6 (by decide)).trans <| (Keeps.launch0 m ρ c main_arg6 (by decide)).trans
    (Keeps.prelude m ρ c main_arg6 (by decide))
  show StableHlo.after hostOps3 (W9 m ρ c) (Proc.devRef .tc main_v66) = _
  generalize W9 m ρ c = V at eb ⊢
  after_results_simp
  rw [eb]
  rfl

theorem act2 : W11 m ρ c (Proc.devRef .tc main_v67) = val_main_v71 (F := Ideal) x₀ x₁ x₂ x₃ x₄ x₅ x₆ := by
  refine (W11_arr m ρ c 2).trans ((Act3.final (V10 m ρ) c).trans ?_)
  refine (congrArg₂ (Gcn.biasRelu (M := 50000) (N := 128)) (agg2 m ρ c) (row2 m ρ c)).trans ?_
  exact Gcn.biasRelu_eq_host _ _ _ Cert.ReferenceIdeal.Gen.bcast_S128_S1x128_1
    Cert.ReferenceIdeal.Gen.bcast_S1x128_S50000x128_0_1 Cert.ReferenceIdeal.Gen.bcast_S_S50000x128

/-! ## The third layer -/

theorem prod3 : W12 m ρ c (Proc.devRef .tc main_v68) = val_main_v72 (F := Ideal) x₀ x₁ x₂ x₃ x₄ x₅ x₆ x₇ := by
  refine (W12_arr m ρ c 2).trans ((Prod4.final (V11 m ρ) c).trans ?_)
  have ew : W11 m ρ c (Proc.devRef .tc main_arg7) = x₇ :=
    (Keeps.launch3 m ρ c main_arg7 (by decide)).trans <| (Keeps.spread3 m ρ c main_arg7 (by decide)).trans <|
    (Keeps.launch2 m ρ c main_arg7 (by decide)).trans <| (Keeps.launch1 m ρ c main_arg7 (by decide)).trans <|
    (Keeps.spread1 m ρ c main_arg7 (by decide)).trans <| (Keeps.launch0 m ρ c main_arg7 (by decide)).trans
    (Keeps.prelude m ρ c main_arg7 (by decide))
  exact (congrArg₂ (Gcn.matProd (M := 50000) (K := 128) (N := 128)) (act2 m ρ c) ew).trans
    (Gcn.hostDot_eq plain128 _ _).symm

theorem src12 : W12 m ρ c (Proc.devRef .tc main_v3) = val_main_v3 (F := Ideal) x₁ :=
  (Keeps.launch4 m ρ c main_v3 (by decide)).trans <| (Keeps.launch3 m ρ c main_v3 (by decide)).trans <|
  (Keeps.spread3 m ρ c main_v3 (by decide)).trans (src9 m ρ c)
theorem dst12 : W12 m ρ c (Proc.devRef .tc main_v7) = val_main_v7 (F := Ideal) x₁ :=
  (Keeps.launch4 m ρ c main_v7 (by decide)).trans <| (Keeps.launch3 m ρ c main_v7 (by decide)).trans <|
  (Keeps.spread3 m ρ c main_v7 (by decide)).trans (dst9 m ρ c)
theorem nrm12 : W12 m ρ c (Proc.devRef .tc main_v35) = val_main_v35 (F := Ideal) x₁ x₂ :=
  (Keeps.launch4 m ρ c main_v35 (by decide)).trans <| (Keeps.launch3 m ρ c main_v35 (by decide)).trans <|
  (Keeps.spread3 m ρ c main_v35 (by decide)).trans (nrm9 m ρ c)

set_option maxHeartbeats 4000000 in
theorem agg3 : W13 m ρ c (Proc.devRef .tc main_v81) = val_main_v85 (F := Ideal) x₀ x₁ x₂ x₃ x₄ x₅ x₆ x₇ := by
  have eh := prod3 m ρ c
  have es := src12 m ρ c
  have ed := dst12 m ρ c
  have en := nrm12 m ρ c
  show StableHlo.after hostOps5 (W12 m ρ c) (Proc.devRef .tc main_v81) = _
  generalize W12 m ρ c = V at eh es ed en ⊢
  after_results_simp
  rw [eh, es, ed, en]
  rfl

set_option maxHeartbeats 4000000 in
theorem row3 : W13 m ρ c (Proc.devRef .tc main_v82)
    = shapeCast S1x128 (x₈ : Vec Ideal S128 .f32) Cert.KernelIdeal.Gen.shapeCasts_S128_S1x128 := by
  have eb : W12 m ρ c (Proc.devRef .tc main_arg8) = x₈ :=
    (Keeps.launch4 m ρ c main_arg8 (by decide)).trans <| (Keeps.launch3 m ρ c main_arg8 (by decide)).trans <|
    (Keeps.spread3 m ρ c main_arg8 (by decide)).trans <| (Keeps.launch2 m ρ c main_arg8 (by decide)).trans <|
    (Keeps.launch1 m ρ c main_arg8 (by decide)).trans <| (Keeps.spread1 m ρ c main_arg8 (by decide)).trans <|
    (Keeps.launch0 m ρ c main_arg8 (by decide)).trans (Keeps.prelude m ρ c main_arg8 (by decide))
  show StableHlo.after hostOps5 (W12 m ρ c) (Proc.devRef .tc main_v82) = _
  generalize W12 m ρ c = V at eb ⊢
  after_results_simp
  rw [eb]
  rfl

/-- THE RESULT: the last launch's output, the program's result array, is the reference's result of the same arguments. -/
theorem result : W14 m ρ c (Proc.devRef .tc main_v83) = val_main_v89 (F := Ideal) x₀ x₁ x₂ x₃ x₄ x₅ x₆ x₇ x₈ := by
  refine (W14_arr m ρ c 2).trans ((Act5.final (V13 m ρ) c).trans ?_)
  refine (congrArg₂ (Gcn.biasRelu (M := 50000) (N := 128)) (agg3 m ρ c) (row3 m ρ c)).trans ?_
  exact Gcn.biasRelu_eq_host _ _ _ Cert.ReferenceIdeal.Gen.bcast_S128_S1x128_1
    Cert.ReferenceIdeal.Gen.bcast_S1x128_S50000x128_0_1 Cert.ReferenceIdeal.Gen.bcast_S_S50000x128

end Cert.KernelIdeal.Layers

end
-- ==== Proof.lean ====
/-
  A three-layer graph convolution on 50000 nodes and 800000 edges (plus one self-loop per node), as a kernel program
  and as a plain host program, equal on the extended reals.

  Both programs first build, by the same host operations, the source and target index vectors with the self-loops
  appended, the edge weights with ones appended, each node's weighted in-degree, its inverse square root where the degree
  is positive and zero elsewhere, and from these every edge's symmetric normalisation. Each of the three layers then
  multiplies the node features by the layer's weight matrix, gathers the product's rows at the source indices, scales
  each by its edge's normalisation, adds them up at the target indices, adds the bias to every row and clamps below at
  zero. The kernel program computes the product and the bias-and-clamp in launches over ten blocks of 5000 rows (the
  product from operands narrowed to a shorter float format, which is the identity on the extended reals, with the
  contraction axis whole in every block); the reference computes them as one contraction and one add-and-maximum. Block
  by block the launches write the rows of the same whole-array functions, the blocks tile the arrays, and everything
  between the launches is the same operations on equal operands. No law of arithmetic beyond that is used, so the
  finiteness of the inputs is never opened.

  The frames: the two kernel programs' are the launch theorem over the program's segments; the reference's is its run
  with the result dropped. The idealization rewrote no operation, so there is nothing to preserve.
-/
import proofs.«111941_j90589450207915_1_alg».proof.Defs
import proofs.«111941_j90589450207915_1_alg».proof.Proof.Gen.Kernel
import proofs.«111941_j90589450207915_1_alg».proof.Proof.Gen.Kernel.Skeleton
import proofs.«111941_j90589450207915_1_alg».proof.Proof.Gen.Kernel.Launch
import proofs.«111941_j90589450207915_1_alg».proof.Proof.Gen.Kernel.Points
import proofs.«111941_j90589450207915_1_alg».proof.Proof.Gen.Kernel.Frame
import proofs.«111941_j90589450207915_1_alg».proof.Proof.Gen.KernelIdeal
import proofs.«111941_j90589450207915_1_alg».proof.Proof.Gen.KernelIdeal.Skeleton
import proofs.«111941_j90589450207915_1_alg».proof.Proof.Gen.KernelIdeal.Launch
import proofs.«111941_j90589450207915_1_alg».proof.Proof.Gen.KernelIdeal.Points
import proofs.«111941_j90589450207915_1_alg».proof.Proof.Gen.KernelIdeal.Frame
import proofs.«111941_j90589450207915_1_alg».proof.Proof.Gen.ReferenceIdeal
import proofs.«111941_j90589450207915_1_alg».proof.Proof.Gen.ReferenceIdeal.Run
import proofs.«111941_j90589450207915_1_alg».proof.Proof.Gen.ReferenceIdeal.Read
import proofs.«111941_j90589450207915_1_alg».proof.Proof.Gen.Pre_finite_inputs
import proofs.«111941_j90589450207915_1_alg».proof.Proof.RunNamed
import proofs.«111941_j90589450207915_1_alg».proof.Proof.Layers
import Idealize.ShloMosaic.Adequacy
import Idealize.ShloMosaic.Init

noncomputable section

namespace Cert.Proof

open Idealize.ShloMosaic Idealize.SL.Sem

/-- From memories that agree on the nine arguments both programs end with the same result array: the reference's
    result function of the arguments. The kernel's program ends with its result array at that function, launch by
    launch; the reference's run ends with it by its own stages. -/
theorem algebraic : Cert.algebraic_KernelIdeal_ReferenceIdeal := by
  intro m ρ m' ρ' _ hagree
  refine ⟨fun c => Cert.ReferenceIdeal.Read.val_main_v89 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)), ?_, ?_⟩
  · exact (θ_run (Cert.KernelIdeal.defs (F := Ideal)) _ _).mono
      (fun r h c => ⟨(h c).1.trans (Cert.KernelIdeal.Layers.result m ρ c), (h c).2⟩)
      (Cert.KernelIdeal.Named.run_named (F := Ideal) m ρ)
  · refine (θ_run (Cert.ReferenceIdeal.defs (F := Ideal)) _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v89_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2) (Cert.ReferenceIdeal.Value.run (F := Ideal) m ρ),
  trivial,
  algebraic⟩

end Cert.Proof

end
